-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1500000x100 : Shape := ⟨2, ![1500000, 100]⟩
abbrev S2000000 : Shape := ⟨1, ![2000000]⟩
abbrev S200000 : Shape := ⟨1, ![200000]⟩
abbrev S20480 : Shape := ⟨1, ![20480]⟩
abbrev S100x256 : Shape := ⟨2, ![100, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩

class Facts : Prop where
  bcast_S_S1500000x100 : S_.BroadcastsInDim S1500000x100 (![] : Fin 0 → Fin S1500000x100.rank)
  reducesTo_S1500000x100_S_d0_1 : S1500000x100.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg13 : FVec F S256x47 .f32) (main_arg14 : FVec F S256x47 .f32) (main_arg15 : FVec F S47 .f32) (main_v33 : IVec S_ 1) : IVec S_ 1 :=
  let main_v34 : FVec F S256x47 .f32 := Host.absf main_arg13
  let main_cst_12 : FVec F S_ .f32 := constant S_ .f32 0x7F800000#32
  let main_v35 : FVec F S256x47 .f32 := broadcastInDim S256x47 ![] bcast_S_S256x47 main_cst_12
  let main_v36 : IVec S256x47 1 := cmpf .olt main_v34 main_v35
  let main_c_13 : IVec S_ 1 := constantI S_ 1 1#1
  let main_v37 : IVec S_ 1 := (fun x v => Host.reduce IntOp.andi x v reducesTo_S256x47_S_d0_1 h_S_) main_v36 main_c_13
  let main_v38 : IVec S_ 1 := andi main_v33 main_v37
  let main_v39 : FVec F S256x47 .f32 := Host.absf main_arg14
  let main_cst_14 : FVec F S_ .f32 := constant S_ .f32 0x7F800000#32
  let main_v40 : FVec F S256x47 .f32 := broadcastInDim S256x47 ![] bcast_S_S256x47 main_cst_14
  let main_v41 : IVec S256x47 1 := cmpf .olt main_v39 main_v40
  let main_c_15 : IVec S_ 1 := constantI S_ 1 1#1
  let main_v42 : IVec S_ 1 := (fun x v => Host.reduce IntOp.andi x v reducesTo_S256x47_S_d0_1 h_S_) main_v41 main_c_15
  let main_v43 : IVec S_ 1 := andi main_v38 main_v42
  let main_v44 : FVec F S47 .f32 := Host.absf main_arg15
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg10 : FVec F S256x256 .f32) (main_arg11 : FVec F S256x256 .f32) (main_arg12 : FVec F S256 .f32) (main_arg13 : FVec F S256x47 .f32) (main_arg14 : FVec F S256x47 .f32) (main_arg15 : FVec F S47 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg13 main_arg14 main_arg15 main_v33

def fn {F : FTy → Type} [FloatOps F] (main_arg0 : FVec F S1500000x100 .f32) (main_arg1 : IVec S2000000 32) (main_arg2 : IVec S2000000 32) (main_arg3 : IVec S200000 32) (main_arg4 : IVec S200000 32) (main_arg5 : IVec S20480 32) (main_arg6 : IVec S20480 32) (main_arg7 : FVec F S100x256 .f32) (main_arg8 : FVec F S100x256 .f32) (main_arg9 : FVec F S256 .f32) (main_arg10 : FVec F S256x256 .f32) (main_arg11 : FVec F S256x256 .f32) (main_arg12 : FVec F S256 .f32) (main_arg13 : FVec F S256x47 .f32) (main_arg14 : FVec F S256x47 .f32) (main_arg15 : FVec F S47 .f32) : IVec S_ 1 :=
  let main_v0 : FVec F S1500000x100 .f32 := Host.absf main_arg0
  let main_cst : FVec F S_ .f32 := constant S_ .f32 0x7F800000#32
  let main_v1 : FVec F S1500000x100 .f32 := broadcastInDim S1500000x100 ![] bcast_S_S1500000x100 main_cst
  let main_v2 : IVec S1500000x100 1 := cmpf .olt main_v0 main_v1
  let main_c : IVec S_ 1 := constantI S_ 1 1#1
  let main_v3 : IVec S_ 1 := (fun x v => Host.reduce IntOp.andi x v reducesTo_S1500000x100_S_d0_1 h_S_) main_v2 main_c
  let main_v4 : FVec F S100x256 .f32 := Host.absf main_arg7
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  let main_v9 : FVec F S100x256 .f32 := Host.absf main_arg8
  let main_cst_2 : FVec F S_ .f32 := constant S_ .f32 0x7F800000#32
  let main_v10 : FVec F S100x256 .f32 := broadcastInDim S100x256 ![] bcast_S_S100x256 main_cst_2
  let main_v11 : IVec S100x256 1 := cmpf .olt main_v9 main_v10
  let main_c_3 : IVec S_ 1 := constantI S_ 1 1#1
  let main_v12 : IVec S_ 1 := (fun x v => Host.reduce IntOp.andi x v reducesTo_S100x256_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg10 main_arg11 main_arg12 main_arg13 main_arg14 main_arg15 main_v13 main_v16
-- ==== Kernel.lean ====
abbrev S1500000x100 : Shape := ⟨2, ![1500000, 100]⟩
abbrev S2000000 : Shape := ⟨1, ![2000000]⟩
abbrev S200000 : Shape := ⟨1, ![200000]⟩
abbrev S20480 : Shape := ⟨1, ![20480]⟩
abbrev S100x256 : Shape := ⟨2, ![100, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩
abbrev S2000000x1 : Shape := ⟨2, ![2000000, 1]⟩
abbrev S2000000x100 : Shape := ⟨2, ![2000000, 100]⟩
abbrev S200000x100 : Shape := ⟨2, ![200000, 100]⟩
abbrev S200000x1 : Shape := ⟨2, ![200000, 1]⟩
abbrev S1x256 : Shape := ⟨2, ![1, 256]⟩
abbrev S200000x256 : Shape := ⟨2, ![200000, 256]⟩
abbrev S4000x100 : Shape := ⟨2, ![4000, 100]⟩
abbrev S4000x256 : Shape := ⟨2, ![4000, 256]⟩
abbrev S20000x256 : Shape := ⟨2, ![20000, 256]⟩
abbrev S20000 : Shape := ⟨1, ![20000]⟩
abbrev S20000x1 : Shape := ⟨2, ![20000, 1]⟩
abbrev S2000x256 : Shape := ⟨2, ![2000, 256]⟩
abbrev S20480x1 : Shape := ⟨2, ![20480, 1]⟩
abbrev S20480x256 : Shape := ⟨2, ![20480, 256]⟩
abbrev S4096x256 : Shape := ⟨2, ![4096, 256]⟩
abbrev S4096 : Shape := ⟨1, ![4096]⟩
abbrev S4096x1 : Shape := ⟨2, ![4096, 1]⟩
abbrev S1x47 : Shape := ⟨2, ![1, 47]⟩
abbrev S4096x47 : Shape := ⟨2, ![4096, 47]⟩

abbrev nBuf : Space → Nat
  | .hbm => 100
  | .vmem => 24
  | .smem => 0
  | _ => 0

abbrev bufTy : (tb : Table) → Fin (tcTables nBuf tb) → BufTy
  | .hbm, ⟨0, _⟩ => ⟨S1500000x100, .f32⟩
  | .hbm, ⟨1, _⟩ => ⟨S2000000, .i32⟩
  | .hbm, ⟨2, _⟩ => ⟨S2000000, .i32⟩
  | .hbm, ⟨3, _⟩ => ⟨S200000, .i32⟩
  | .hbm, ⟨4, _⟩ => ⟨S200000, .i32⟩
  | .hbm, ⟨5, _⟩ => ⟨S20480, .i32⟩
  | .hbm, ⟨6, _⟩ => ⟨S20480, .i32⟩
  | .hbm, ⟨7, _⟩ => ⟨S100x256, .f32⟩
  | .hbm, ⟨8, _⟩ => ⟨S100x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x47, .f32⟩
  | .hbm, ⟨14, _⟩ => ⟨S256x47, .f32⟩
  | .hbm, ⟨15, _⟩ => ⟨S47, .f32⟩
  | .hbm, ⟨16, _⟩ => ⟨S_, .i32⟩
  | .hbm, ⟨17, _⟩ => ⟨S2000000, .i32⟩
  | .hbm, ⟨18, _⟩ => ⟨S2000000, .i1⟩
  | .hbm, ⟨19, _⟩ => ⟨S_, .i32⟩
  | .hbm, ⟨20, _⟩ => ⟨S2000000, .i32⟩
  | .hbm, ⟨21, _⟩ => ⟨S2000000, .i32⟩
  | .hbm, ⟨22, _⟩ => ⟨S2000000, .i32⟩
  | .hbm, ⟨23, _⟩ => ⟨S2000000x1, .i32⟩
  | .hbm, ⟨24, _⟩ => ⟨S2000000x100, .f32⟩
  | .hbm, ⟨25, _⟩ => ⟨S_, .f32⟩
  | .hbm, ⟨26, _⟩ => ⟨S200000x100, .f32⟩
  | .hbm, ⟨27, _⟩ => ⟨S2000000x1, .i32⟩
  | .hbm, ⟨28, _⟩ => ⟨S200000x100, .f32⟩
  | .hbm, ⟨29, _⟩ => ⟨S_, .f32⟩
  | .hbm, ⟨30, _⟩ => ⟨S2000000, .f32⟩
  | .hbm, ⟨31, _⟩ => ⟨S_, .f32⟩
  | .hbm, ⟨32, _⟩ => ⟨S200000, .f32⟩
  | .hbm, ⟨33, _⟩ => ⟨S2000000x1, .i32⟩
  | .hbm, ⟨34, _⟩ => ⟨S200000, .f32⟩
  | .hbm, ⟨35, _⟩ => ⟨S_, .f32⟩
  | .hbm, ⟨36, _⟩ => ⟨S200000, .f32⟩
  | .hbm, ⟨37, _⟩ => ⟨S200000, .f32⟩
  | .hbm, ⟨38, _⟩ => ⟨S200000x1, .f32⟩
  | .hbm, ⟨39, _⟩ => ⟨S200000x100, .f32⟩
  | .hbm, ⟨40, _⟩ => ⟨S200000x100, .f32⟩
  | .hbm, ⟨41, _⟩ => ⟨S200000x100, .f32⟩
  | .hbm, ⟨42, _⟩ => ⟨S1x256, .f32⟩
  | .hbm, ⟨43, _⟩ => ⟨S200000x256, .f32⟩
  | .hbm, ⟨44, _⟩ => ⟨S_, .i32⟩
  | .hbm, ⟨45, _⟩ => ⟨S200000, .i32⟩
  | .hbm, ⟨46, _⟩ => ⟨S200000, .i1⟩
  | .hbm, ⟨47, _⟩ => ⟨S_, .i32⟩
  | .hbm, ⟨48, _⟩ => ⟨S200000, .i32⟩
  | .hbm, ⟨49, _⟩ => ⟨S200000, .i32⟩
  | .hbm, ⟨50, _⟩ => ⟨S200000, .i32⟩
  | .hbm, ⟨51, _⟩ => ⟨S200000x1, .i32⟩
  | .hbm, ⟨52, _⟩ => ⟨S200000x256, .f32⟩
  | .hbm, ⟨53, _⟩ => ⟨S_, .f32⟩
  | .hbm, ⟨54, _⟩ => ⟨S20000x256, .f32⟩
  | .hbm, ⟨55, _⟩ => ⟨S200000x1, .i32⟩
  | .hbm, ⟨56, _⟩ => ⟨S20000x256, .f32⟩
  | .hbm, ⟨57, _⟩ => ⟨S_, .f32⟩
  | .hbm, ⟨58, _⟩ => ⟨S200000, .f32⟩
  | .hbm, ⟨59, _⟩ => ⟨S_, .f32⟩
  | .hbm, ⟨60, _⟩ => ⟨S20000, .f32⟩
  | .hbm, ⟨61, _⟩ => ⟨S200000x1, .i32⟩
  | .hbm, ⟨62, _⟩ => ⟨S20000, .f32⟩
  | .hbm, ⟨63, _⟩ => ⟨S_, .f32⟩
  | .hbm, ⟨64, _⟩ => ⟨S20000, .f32⟩
  | .hbm, ⟨65, _⟩ => ⟨S20000, .f32⟩
  | .hbm, ⟨66, _⟩ => ⟨S20000x1, .f32⟩
  | .hbm, ⟨67, _⟩ => ⟨S20000x256, .f32⟩
  | .hbm, ⟨68, _⟩ => ⟨S20000x256, .f32⟩
  | .hbm, ⟨69, _⟩ => ⟨S20000x256, .f32⟩
  | .hbm, ⟨70, _⟩ => ⟨S1x256, .f32⟩
  | .hbm, ⟨71, _⟩ => ⟨S20000x256, .f32⟩
  | .hbm, ⟨72, _⟩ => ⟨S_, .i32⟩
  | .hbm, ⟨73, _⟩ => ⟨S20480, .i32⟩
  | .hbm, ⟨74, _⟩ => ⟨S20480, .i1⟩
  | .hbm, ⟨75, _⟩ => ⟨S_, .i32⟩
  | .hbm, ⟨76, _⟩ => ⟨S20480, .i32⟩
  | .hbm, ⟨77, _⟩ => ⟨S20480, .i32⟩
  | .hbm, ⟨78, _⟩ => ⟨S20480, .i32⟩
  | .hbm, ⟨79, _⟩ => ⟨S20480x1, .i32⟩
  | .hbm, ⟨80, _⟩ => ⟨S20480x256, .f32⟩
  | .hbm, ⟨81, _⟩ => ⟨S_, .f32⟩
  | .hbm, ⟨82, _⟩ => ⟨S4096x256, .f32⟩
  | .hbm, ⟨83, _⟩ => ⟨S20480x1, .i32⟩
  | .hbm, ⟨84, _⟩ => ⟨S4096x256, .f32⟩
  | .hbm, ⟨85, _⟩ => ⟨S_, .f32⟩
  | .hbm, ⟨86, _⟩ => ⟨S20480, .f32⟩
  | .hbm, ⟨87, _⟩ => ⟨S_, .f32⟩
  | .hbm, ⟨88, _⟩ => ⟨S4096, .f32⟩
  | .hbm, ⟨89, _⟩ => ⟨S20480x1, .i32⟩
  | .hbm, ⟨90, _⟩ => ⟨S4096, .f32⟩
  | .hbm, ⟨91, _⟩ => ⟨S_, .f32⟩
  | .hbm, ⟨92, _⟩ => ⟨S4096, .f32⟩
  | .hbm, ⟨93, _⟩ => ⟨S4096, .f32⟩
  | .hbm, ⟨94, _⟩ => ⟨S4096x1, .f32⟩
  | .hbm, ⟨95, _⟩ => ⟨S4096x256, .f32⟩
  | .hbm, ⟨96, _⟩ => ⟨S4096x256, .f32⟩
  | .hbm, ⟨97, _⟩ => ⟨S4096x256, .f32⟩
  | .hbm, ⟨98, _⟩ => ⟨S1x47, .f32⟩
  | .hbm, ⟨99, _⟩ => ⟨S4096x47, .f32⟩
  | .local _ .vmem, ⟨0, _⟩ => ⟨S4000x100, .f32⟩
  | .local _ .vmem, ⟨1, _⟩ => ⟨S4000x100, .f32⟩
  | .local _ .vmem, ⟨2, _⟩ => ⟨S4000x100, .f32⟩
  | .local _ .vmem, ⟨3, _⟩ => ⟨S4000x100, .f32⟩
  | .local _ .vmem, ⟨4, _⟩ => ⟨S100x256, .f32⟩
  | .local _ .vmem, ⟨5, _⟩ => ⟨S100x256, .f32⟩
  | .local _ .vmem, ⟨6, _⟩ => ⟨S1x256, .f32⟩
  | .local _ .vmem, ⟨7, _⟩ => ⟨S4000x256, .f32⟩
  | .local _ .vmem, ⟨8, _⟩ => ⟨S4000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S4096x256, .f32⟩
  | .local _ .vmem, ⟨19, _⟩ => ⟨S4096x256, .f32⟩
  | .local _ .vmem, ⟨20, _⟩ => ⟨S256x47, .f32⟩
  | .local _ .vmem, ⟨21, _⟩ => ⟨S256x47, .f32⟩
  | .local _ .vmem, ⟨22, _⟩ => ⟨S1x47, .f32⟩
  | .local _ .vmem, ⟨23, _⟩ => ⟨S4096x47, .f32⟩
  | _, _ => ⟨S1500000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_12 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_13 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_15 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4096x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S4096x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S256x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4096x47 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x100 : S_.BroadcastsInDim S200000x100 (![] : Fin 0 → Fin S200000x100.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x100_0_1 : S200000x1.BroadcastsInDim S200000x100 (![0, 1] : Fin 2 → Fin S200000x100.rank)
  slices_S1500000x100_S200000x100_0_0 : S1500000x100.Slices ![0, 0] S200000x100
  shapeCasts_S256_S1x256 : S256.ShapeCasts S1x256
  inb_S4000x100_S4000x100_0_0 : ∀ a, (![0, 0] : Fin 2 → Nat) a + S4000x100.size a ≤ S4000x100.size a
  h_S4000x100 : 0 < S4000x100.numel
  shapeCasts_S4000x100_S4000x100 : S4000x100.ShapeCasts S4000x100
  bitsLt_bf16_f32 : FTy.bits .bf16 < FTy.bits .f32
  inb_S100x256_S100x256_0_0 : ∀ a, (![0, 0] : Fin 2 → Nat) a + S100x256.size a ≤ S100x256.size a
  h_S100x256 : 0 < S100x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  slices_S200000x256_S20000x256_0_0 : S200000x256.Slices ![0, 0] S20000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  broadcasts_S1x256_S2000x256 : S1x256.Broadcasts S2000x256
  bcast_S_S20480 : S_.BroadcastsInDim S20480 (![] : Fin 0 → Fin S20480.rank)
  bcast_S20480_S20480x1_0 : S20480.BroadcastsInDim S20480x1 (![0] : Fin 1 → Fin S20480x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  slices_S20000x256_S4096x256_0_0 : S20000x256.Slices ![0, 0] S4096x256
  shapeCasts_S47_S1x47 : S47.ShapeCasts S1x47
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x47_S256x47_0_0 : ∀ a, (![0, 0] : Fin 2 → Nat) a + S256x47.size a ≤ S256x47.size a
  h_S256x47 : 0 < S256x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S4096x47 : S1x47.Broadcasts S4096x47
  reduces_S4096x47_S4096 : S4096x47.Reduces [1] S4096
  shapeCasts_S4096_S4096x1 : S4096.ShapeCasts S4096x1
  broadcasts_S4096x1_S4096x47 : S4096x1.Broadcasts S4096x47
  inb_S4096x47_S4096x47_0_0 : ∀ a, (![0, 0] : Fin 2 → Nat) a + S4096x47.size a ≤ S4096x47.size a
  h_S4096x47 : 0 < S4096x47.numel
  gather_S1500000x100_S2000000x1_S2000000x100_1_0_n_n_0_1_1100_wf : GatherDims.WF S1500000x100 S2000000x1 S2000000x100 [1] [0] [] [0] [] 1 ![1, 100]
  scatter_S200000x100_S2000000x1_S2000000x100_1_0_0_1_wf : ScatterDims.WF S200000x100 S2000000x1 S2000000x100 [1] [0] [0] 1
  scatter_S200000_S2000000x1_S2000000_n_0_0_1_wf : ScatterDims.WF S200000 S2000000x1 S2000000 [] [0] [0] 1
  dot_S4000x100_S100x256_S4000x256_1_0_0_1_n_n_wf : DotDims.WF S4000x100 S100x256 S4000x256 [1] [0] [0] [1] [] []
  gather_S200000x256_S200000x1_S200000x256_1_0_n_n_0_1_1256_wf : GatherDims.WF S200000x256 S200000x1 S200000x256 [1] [0] [] [0] [] 1 ![1, 256]
  scatter_S20000x256_S200000x1_S200000x256_1_0_0_1_wf : ScatterDims.WF S20000x256 S200000x1 S200000x256 [1] [0] [0] 1
  scatter_S20000_S200000x1_S200000_n_0_0_1_wf : ScatterDims.WF S20000 S200000x1 S200000 [] [0] [0] 1
  dot_S2000x256_S256x256_S2000x256_1_0_0_1_n_n_wf : DotDims.WF S2000x256 S256x256 S2000x256 [1] [0] [0] [1] [] []
  gather_S20000x256_S20480x1_S20480x256_1_0_n_n_0_1_1256_wf : GatherDims.WF S20000x256 S20480x1 S20480x256 [1] [0] [] [0] [] 1 ![1, 256]
  scatter_S4096x256_S20480x1_S20480x256_1_0_0_1_wf : ScatterDims.WF S4096x256 S20480x1 S20480x256 [1] [0] [0] 1
  scatter_S4096_S20480x1_S20480_n_0_0_1_wf : ScatterDims.WF S4096 S20480x1 S20480 [] [0] [0] 1
  dot_S4096x256_S256x47_S4096x47_1_0_0_1_n_n_wf : DotDims.WF S4096x256 S256x47 S4096x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x100.size a ≤ S200000x100.size a
  hwx0_0 : ∀ i : grid0.Coords, EltTy.bits .f32 = 32 ∨ (Rect.block (s := S200000x100) S4000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x100.size a ≤ S200000x100.size a
  hwx0_1 : ∀ i : grid0.Coords, EltTy.bits .f32 = 32 ∨ (Rect.block (s := S200000x100) S4000x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x256.size a ≤ S100x256.size a
  hwx0_2 : ∀ i : grid0.Coords, EltTy.bits .f32 = 32 ∨ (Rect.block (s := S100x256) S100x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x256.size a ≤ S100x256.size a
  hwx0_3 : ∀ i : grid0.Coords, EltTy.bits .f32 = 32 ∨ (Rect.block (s := S100x256) S100x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S200000x256.size a
  hwx0_5 : ∀ i : grid0.Coords, EltTy.bits .f32 = 32 ∨ (Rect.block (s := S200000x256) S4000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S20000x256.size a
  hwx1_5 : ∀ i : grid1.Coords, EltTy.bits .f32 = 32 ∨ (Rect.block (s := S20000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S4096x256.size a
  hwx2_0 : ∀ i : grid2.Coords, EltTy.bits .f32 = 32 ∨ (Rect.block (s := S4096x256) S4096x256.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .f32 = 32 ∨ (Rect.block (s := S4096x256) S4096x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x47.size a ≤ S256x47.size a
  hwx2_2 : ∀ i : grid2.Coords, EltTy.bits .f32 = 32 ∨ (Rect.block (s := S256x47) S256x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x47.size a ≤ S256x47.size a
  hwx2_3 : ∀ i : grid2.Coords, EltTy.bits .f32 = 32 ∨ (Rect.block (s := S256x47) S256x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x47.size a ≤ S1x47.size a
  hwx2_4 : ∀ i : grid2.Coords, EltTy.bits .f32 = 32 ∨ (Rect.block (s := S1x47) S1x47.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S4096x47.size a ≤ S4096x47.size a
  hwx2_5 : ∀ i : grid2.Coords, EltTy.bits .f32 = 32 ∨ (Rect.block (s := S4096x47) S4096x47.size (cc2_transform_5 i) (hinb2_5 i)).WholeWords (EltTy.packing .f32)

variable [Facts₀]

def gather_S1500000x100_S2000000x1_S2000000x100_1_0_n_n_0_1_1100 : GatherDims S1500000x100 S2000000x1 S2000000x100 where
  offsetDims := [1]
  collapsedSliceDims := [0]
  operandBatchingDims := []
  startIndicesBatchingDims := []
  startIndexMap := [0]
  indexVectorDim := 1
  sliceSizes := ![1, 100]
  wf := gather_S1500000x100_S2000000x1_S2000000x100_1_0_n_n_0_1_1100_wf
def scatter_S200000x100_S2000000x1_S2000000x100_1_0_0_1 : ScatterDims S200000x100 S2000000x1 S2000000x100 where
  updateWindowDims := [1]
  insertedWindowDims := [0]
  scatterDimsToOperandDims := [0]
  indexVectorDim := 1
  wf := scatter_S200000x100_S2000000x1_S2000000x100_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S4000x100_S100x256_S4000x256_1_0_0_1_n_n : DotDims S4000x100 S100x256 S4000x256 where
  lhsContracting := [1]
  rhsContracting := [0]
  lhsNonContracting := [0]
  rhsNonContracting := [1]
  lhsBatch := []
  rhsBatch := []
  wf := dot_S4000x100_S100x256_S4000x256_1_0_0_1_n_n_wf
def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S20480x1_S20480x256_1_0_n_n_0_1_1256 : GatherDims S20000x256 S20480x1 S20480x256 where
  offsetDims := [1]
  collapsedSliceDims := [0]
  operandBatchingDims := []
  startIndicesBatchingDims := []
  startIndexMap := [0]
  indexVectorDim := 1
  sliceSizes := ![1, 256]
  wf := gather_S20000x256_S20480x1_S20480x256_1_0_n_n_0_1_1256_wf
def scatter_S4096x256_S20480x1_S20480x256_1_0_0_1 : ScatterDims S4096x256 S20480x1 S20480x256 where
  updateWindowDims := [1]
  insertedWindowDims := [0]
  scatterDimsToOperandDims := [0]
  indexVectorDim := 1
  wf := scatter_S4096x256_S20480x1_S20480x256_1_0_0_1_wf
def scatter_S4096_S20480x1_S20480_n_0_0_1 : ScatterDims S4096 S20480x1 S20480 where
  updateWindowDims := []
  insertedWindowDims := [0]
  scatterDimsToOperandDims := [0]
  indexVectorDim := 1
  wf := scatter_S4096_S20480x1_S20480_n_0_0_1_wf
def dot_S4096x256_S256x47_S4096x47_1_0_0_1_n_n : DotDims S4096x256 S256x47 S4096x47 where
  lhsContracting := [1]
  rhsContracting := [0]
  lhsNonContracting := [0]
  rhsNonContracting := [1]
  lhsBatch := []
  rhsBatch := []
  wf := dot_S4096x256_S256x47_S4096x47_1_0_0_1_n_n_wf

abbrev win0_0 : Pipeline.Window sig grid0 :=
  Pipeline.Window.ofSpec (Memref.whole main_v18) S4000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S100x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S100x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S4096x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v63) S4096x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S256x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S256x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S4096x47.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1500000x100 : Shape := ⟨2, ![1500000, 100]⟩
abbrev S2000000 : Shape := ⟨1, ![2000000]⟩
abbrev S200000 : Shape := ⟨1, ![200000]⟩
abbrev S20480 : Shape := ⟨1, ![20480]⟩
abbrev S100x256 : Shape := ⟨2, ![100, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S200000x100 : Shape := ⟨2, ![200000, 100]⟩
abbrev S_ : Shape := ⟨0, ![]⟩
abbrev S2000000x1 : Shape := ⟨2, ![2000000, 1]⟩
abbrev S2000000x100 : Shape := ⟨2, ![2000000, 100]⟩
abbrev S200000x1 : Shape := ⟨2, ![200000, 1]⟩
abbrev S200000x256 : Shape := ⟨2, ![200000, 256]⟩
abbrev S1x256 : Shape := ⟨2, ![1, 256]⟩
abbrev S20000x256 : Shape := ⟨2, ![20000, 256]⟩
abbrev S20000 : Shape := ⟨1, ![20000]⟩
abbrev S20000x1 : Shape := ⟨2, ![20000, 1]⟩
abbrev S4096x256 : Shape := ⟨2, ![4096, 256]⟩
abbrev S20480x1 : Shape := ⟨2, ![20480, 1]⟩
abbrev S20480x256 : Shape := ⟨2, ![20480, 256]⟩
abbrev S4096 : Shape := ⟨1, ![4096]⟩
abbrev S4096x1 : Shape := ⟨2, ![4096, 1]⟩
abbrev S4096x47 : Shape := ⟨2, ![4096, 47]⟩
abbrev S1x47 : Shape := ⟨2, ![1, 47]⟩

abbrev nBuf : Space → Nat
  | .hbm => 133
  | .vmem => 0
  | .smem => 0
  | _ => 0

abbrev hbmTy0_0 (i : Nat) : BufTy := match i % 128 with
  | 0 => ⟨S1500000x100, .f32⟩
  | 1 => ⟨S2000000, .i32⟩
  | 2 => ⟨S2000000, .i32⟩
  | 3 => ⟨S200000, .i32⟩
  | 4 => ⟨S200000, .i32⟩
  | 5 => ⟨S20480, .i32⟩
  | 6 => ⟨S20480, .i32⟩
  | 7 => ⟨S100x256, .f32⟩
  | 8 => ⟨S100x256, .f32⟩
  | 9 => ⟨S256, .f32⟩
  | 10 => ⟨S256x256, .f32⟩
  | 11 => ⟨S256x256, .f32⟩
  | 12 => ⟨S256, .f32⟩
  | 13 => ⟨S256x47, .f32⟩
  | 14 => ⟨S256x47, .f32⟩
  | 15 => ⟨S47, .f32⟩
  | 16 => ⟨S200000x100, .f32⟩
  | 17 => ⟨S_, .i32⟩
  | 18 => ⟨S2000000, .i32⟩
  | 19 => ⟨S2000000, .i1⟩
  | 20 => ⟨S_, .i32⟩
  | 21 => ⟨S2000000, .i32⟩
  | 22 => ⟨S2000000, .i32⟩
  | 23 => ⟨S2000000, .i32⟩
  | 24 => ⟨S2000000x1, .i32⟩
  | 25 => ⟨S2000000x100, .f32⟩
  | 26 => ⟨S_, .f32⟩
  | 27 => ⟨S200000x100, .f32⟩
  | 28 => ⟨S2000000x1, .i32⟩
  | 29 => ⟨S200000x100, .f32⟩
  | 30 => ⟨S_, .f32⟩
  | 31 => ⟨S2000000, .f32⟩
  | 32 => ⟨S_, .f32⟩
  | 33 => ⟨S200000, .f32⟩
  | 34 => ⟨S2000000x1, .i32⟩
  | 35 => ⟨S200000, .f32⟩
  | 36 => ⟨S_, .f32⟩
  | 37 => ⟨S200000, .f32⟩
  | 38 => ⟨S200000, .f32⟩
  | 39 => ⟨S200000x1, .f32⟩
  | 40 => ⟨S200000x100, .f32⟩
  | 41 => ⟨S200000x100, .f32⟩
  | 42 => ⟨S200000x256, .f32⟩
  | 43 => ⟨S200000x256, .f32⟩
  | 44 => ⟨S200000x256, .f32⟩
  | 45 => ⟨S1x256, .f32⟩
  | 46 => ⟨S200000x256, .f32⟩
  | 47 => ⟨S200000x256, .f32⟩
  | 48 => ⟨S_, .f32⟩
  | 49 => ⟨S200000x256, .f32⟩
  | 50 => ⟨S200000x256, .f32⟩
  | 51 => ⟨S20000x256, .f32⟩
  | 52 => ⟨S_, .i32⟩
  | 53 => ⟨S200000, .i32⟩
  | 54 => ⟨S200000, .i1⟩
  | 55 => ⟨S_, .i32⟩
  | 56 => ⟨S200000, .i32⟩
  | 57 => ⟨S200000, .i32⟩
  | 58 => ⟨S200000, .i32⟩
  | 59 => ⟨S200000x1, .i32⟩
  | 60 => ⟨S200000x256, .f32⟩
  | 61 => ⟨S_, .f32⟩
  | 62 => ⟨S20000x256, .f32⟩
  | 63 => ⟨S200000x1, .i32⟩
  | 64 => ⟨S20000x256, .f32⟩
  | 65 => ⟨S_, .f32⟩
  | 66 => ⟨S200000, .f32⟩
  | 67 => ⟨S_, .f32⟩
  | 68 => ⟨S20000, .f32⟩
  | 69 => ⟨S200000x1, .i32⟩
  | 70 => ⟨S20000, .f32⟩
  | 71 => ⟨S_, .f32⟩
  | 72 => ⟨S20000, .f32⟩
  | 73 => ⟨S20000, .f32⟩
  | 74 => ⟨S20000x1, .f32⟩
  | 75 => ⟨S20000x256, .f32⟩
  | 76 => ⟨S20000x256, .f32⟩
  | 77 => ⟨S20000x256, .f32⟩
  | 78 => ⟨S20000x256, .f32⟩
  | 79 => ⟨S20000x256, .f32⟩
  | 80 => ⟨S1x256, .f32⟩
  | 81 => ⟨S20000x256, .f32⟩
  | 82 => ⟨S20000x256, .f32⟩
  | 83 => ⟨S_, .f32⟩
  | 84 => ⟨S20000x256, .f32⟩
  | 85 => ⟨S20000x256, .f32⟩
  | 86 => ⟨S4096x256, .f32⟩
  | 87 => ⟨S_, .i32⟩
  | 88 => ⟨S20480, .i32⟩
  | 89 => ⟨S20480, .i1⟩
  | 90 => ⟨S_, .i32⟩
  | 91 => ⟨S20480, .i32⟩
  | 92 => ⟨S20480, .i32⟩
  | 93 => ⟨S20480, .i32⟩
  | 94 => ⟨S20480x1, .i32⟩
  | 95 => ⟨S20480x256, .f32⟩
  | 96 => ⟨S_, .f32⟩
  | 97 => ⟨S4096x256, .f32⟩
  | 98 => ⟨S20480x1, .i32⟩
  | 99 => ⟨S4096x256, .f32⟩
  | 100 => ⟨S_, .f32⟩
  | 101 => ⟨S20480, .f32⟩
  | 102 => ⟨S_, .f32⟩
  | 103 => ⟨S4096, .f32⟩
  | 104 => ⟨S20480x1, .i32⟩
  | 105 => ⟨S4096, .f32⟩
  | 106 => ⟨S_, .f32⟩
  | 107 => ⟨S4096, .f32⟩
  | 108 => ⟨S4096, .f32⟩
  | 109 => ⟨S4096x1, .f32⟩
  | 110 => ⟨S4096x256, .f32⟩
  | 111 => ⟨S4096x256, .f32⟩
  | 112 => ⟨S4096x47, .f32⟩
  | 113 => ⟨S4096x47, .f32⟩
  | 114 => ⟨S4096x47, .f32⟩
  | 115 => ⟨S1x47, .f32⟩
  | 116 => ⟨S4096x47, .f32⟩
  | 117 => ⟨S4096x47, .f32⟩
  | 118 => ⟨S_, .f32⟩
  | 119 => ⟨S4096, .f32⟩
  | 120 => ⟨S_, .f32⟩
  | 121 => ⟨S4096, .f32⟩
  | 122 => ⟨S4096, .f32⟩
  | 123 => ⟨S4096x1, .f32⟩
  | 124 => ⟨S4096x47, .f32⟩
  | 125 => ⟨S4096x47, .f32⟩
  | 126 => ⟨S4096x47, .f32⟩
  | 127 => ⟨S_, .f32⟩
  | _ => ⟨S1500000x100, .f32⟩

abbrev hbmTy0_1 (i : Nat) : BufTy := match i % 128 with
  | 0 => ⟨S4096, .f32⟩
  | 1 => ⟨S4096x1, .f32⟩
  | 2 => ⟨S4096x1, .f32⟩
  | 3 => ⟨S4096x47, .f32⟩
  | 4 => ⟨S4096x47, .f32⟩
  | _ => ⟨S1500000x100, .f32⟩

abbrev hbmTy (i : Nat) : BufTy := match i / 128 with
  | 0 => hbmTy0_0 i
  | 1 => hbmTy0_1 i
  | _ => ⟨S1500000x100, .f32⟩

abbrev bufTy : (tb : Table) → Fin (tcTables nBuf tb) → BufTy
  | .hbm, ⟨i, _⟩ => hbmTy i
  | _, _ => ⟨S1500000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_cst : Ref sig .tc := ⟨.hbm, 48, rfl⟩
abbrev main_call0_v0 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_v54 : Ref sig .tc := ⟨.hbm, 86, rfl⟩
abbrev main_c_10 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_15 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_call2_cst : Ref sig .tc := ⟨.hbm, 118, rfl⟩
abbrev main_call2_v0 : Ref sig .tc := ⟨.hbm, 119, rfl⟩
abbrev main_call2_cst_0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_cst_1 : Ref sig .tc := ⟨.hbm, 127, rfl⟩
abbrev main_call2_v7 : Ref sig .tc := ⟨.hbm, 128, rfl⟩
abbrev main_call2_v8 : Ref sig .tc := ⟨.hbm, 129, rfl⟩
abbrev main_call2_v9 : Ref sig .tc := ⟨.hbm, 130, rfl⟩
abbrev main_call2_v10 : Ref sig .tc := ⟨.hbm, 131, rfl⟩
abbrev main_v80 : Ref sig .tc := ⟨.hbm, 132, rfl⟩

abbrev nD : Nat := 1
abbrev τ : Topo := Topo.v7x

variable {F : FTy → Type} [FloatOps F]

class Facts₀ : Prop where
  slices_S1500000x100_S200000x100_0_0 : S1500000x100.Slices ![0, 0] S200000x100
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x100 : S_.BroadcastsInDim S200000x100 (![] : Fin 0 → Fin S200000x100.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x100_0_1 : S200000x1.BroadcastsInDim S200000x100 (![0, 1] : Fin 2 → Fin S200000x100.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  slices_S200000x256_S20000x256_0_0 : S200000x256.Slices ![0, 0] S20000x256
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S1x256_S20000x256_0_1 : S1x256.BroadcastsInDim S20000x256 (![0, 1] : Fin 2 → Fin S20000x256.rank)
  slices_S20000x256_S4096x256_0_0 : S20000x256.Slices ![0, 0] S4096x256
  bcast_S_S20480 : S_.BroadcastsInDim S20480 (![] : Fin 0 → Fin S20480.rank)
  bcast_S20480_S20480x1_0 : S20480.BroadcastsInDim S20480x1 (![0] : Fin 1 → Fin S20480x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S47_S1x47_1 : S47.BroadcastsInDim S1x47 (![1] : Fin 1 → Fin S1x47.rank)
  bcast_S1x47_S4096x47_0_1 : S1x47.BroadcastsInDim S4096x47 (![0, 1] : Fin 2 → Fin S4096x47.rank)
  reducesTo_S4096x47_S4096_d1 : S4096x47.ReducesTo [1] S4096
  h_S_ : 0 < S_.numel
  bcast_S4096x1_S4096x47_0_1 : S4096x1.BroadcastsInDim S4096x47 (![0, 1] : Fin 2 → Fin S4096x47.rank)
  gather_S1500000x100_S2000000x1_S2000000x100_1_0_n_n_0_1_1100_wf : GatherDims.WF S1500000x100 S2000000x1 S2000000x100 [1] [0] [] [0] [] 1 ![1, 100]
  scatter_S200000x100_S2000000x1_S2000000x100_1_0_0_1_wf : ScatterDims.WF S200000x100 S2000000x1 S2000000x100 [1] [0] [0] 1
  scatter_S200000_S2000000x1_S2000000_n_0_0_1_wf : ScatterDims.WF S200000 S2000000x1 S2000000 [] [0] [0] 1
  dot_S200000x100_S100x256_S200000x256_1_0_0_1_n_n_wf : DotDims.WF S200000x100 S100x256 S200000x256 [1] [0] [0] [1] [] []
  gather_S200000x256_S200000x1_S200000x256_1_0_n_n_0_1_1256_wf : GatherDims.WF S200000x256 S200000x1 S200000x256 [1] [0] [] [0] [] 1 ![1, 256]
  scatter_S20000x256_S200000x1_S200000x256_1_0_0_1_wf : ScatterDims.WF S20000x256 S200000x1 S200000x256 [1] [0] [0] 1
  scatter_S20000_S200000x1_S200000_n_0_0_1_wf : ScatterDims.WF S20000 S200000x1 S200000 [] [0] [0] 1
  dot_S20000x256_S256x256_S20000x256_1_0_0_1_n_n_wf : DotDims.WF S20000x256 S256x256 S20000x256 [1] [0] [0] [1] [] []
  gather_S20000x256_S20480x1_S20480x256_1_0_n_n_0_1_1256_wf : GatherDims.WF S20000x256 S20480x1 S20480x256 [1] [0] [] [0] [] 1 ![1, 256]
  scatter_S4096x256_S20480x1_S20480x256_1_0_0_1_wf : ScatterDims.WF S4096x256 S20480x1 S20480x256 [1] [0] [0] 1
  scatter_S4096_S20480x1_S20480_n_0_0_1_wf : ScatterDims.WF S4096 S20480x1 S20480 [] [0] [0] 1
  dot_S4096x256_S256x47_S4096x47_1_0_0_1_n_n_wf : DotDims.WF S4096x256 S256x47 S4096x47 [1] [0] [0] [1] [] []

variable [Facts₀]

def gather_S1500000x100_S2000000x1_S2000000x100_1_0_n_n_0_1_1100 : GatherDims S1500000x100 S2000000x1 S2000000x100 where
  offsetDims := [1]
  collapsedSliceDims := [0]
  operandBatchingDims := []
  startIndicesBatchingDims := []
  startIndexMap := [0]
  indexVectorDim := 1
  sliceSizes := ![1, 100]
  wf := gather_S1500000x100_S2000000x1_S2000000x100_1_0_n_n_0_1_1100_wf
def scatter_S200000x100_S2000000x1_S2000000x100_1_0_0_1 : ScatterDims S200000x100 S2000000x1 S2000000x100 where
  updateWindowDims := [1]
  insertedWindowDims := [0]
  scatterDimsToOperandDims := [0]
  indexVectorDim := 1
  wf := scatter_S200000x100_S2000000x1_S2000000x100_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S200000x100_S100x256_S200000x256_1_0_0_1_n_n : DotDims S200000x100 S100x256 S200000x256 where
  lhsContracting := [1]
  rhsContracting := [0]
  lhsNonContracting := [0]
  rhsNonContracting := [1]
  lhsBatch := []
  rhsBatch := []
  wf := dot_S200000x100_S100x256_S200000x256_1_0_0_1_n_n_wf
def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S20480x1_S20480x256_1_0_n_n_0_1_1256 : GatherDims S20000x256 S20480x1 S20480x256 where
  offsetDims := [1]
  collapsedSliceDims := [0]
  operandBatchingDims := []
  startIndicesBatchingDims := []
  startIndexMap := [0]
  indexVectorDim := 1
  sliceSizes := ![1, 256]
  wf := gather_S20000x256_S20480x1_S20480x256_1_0_n_n_0_1_1256_wf
def scatter_S4096x256_S20480x1_S20480x256_1_0_0_1 : ScatterDims S4096x256 S20480x1 S20480x256 where
  updateWindowDims := [1]
  insertedWindowDims := [0]
  scatterDimsToOperandDims := [0]
  indexVectorDim := 1
  wf := scatter_S4096x256_S20480x1_S20480x256_1_0_0_1_wf
def scatter_S4096_S20480x1_S20480_n_0_0_1 : ScatterDims S4096 S20480x1 S20480 where
  updateWindowDims := []
  insertedWindowDims := [0]
  scatterDimsToOperandDims := [0]
  indexVectorDim := 1
  wf := scatter_S4096_S20480x1_S20480_n_0_0_1_wf
def dot_S4096x256_S256x47_S4096x47_1_0_0_1_n_n : DotDims S4096x256 S256x47 S4096x47 where
  lhsContracting := [1]
  rhsContracting := [0]
  lhsNonContracting := [0]
  rhsNonContracting := [1]
  lhsBatch := []
  rhsBatch := []
  wf := dot_S4096x256_S256x47_S4096x47_1_0_0_1_n_n_wf

class Facts : Prop extends Facts₀ where

variable [Facts]
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Spec.lean ====
/-
  One dense stage of a GraphSAGE layer, entry by entry, on the extended reals.

  A stage takes the neighbour means `mean` and the targets' own features `xdst` (both [a, k]), two weight
  matrices `wl`, `wr` ([k, b]) and a bias row, and forms, at row p and column q,

      lin p q = (∑ κ < k, mean (p, κ) · wl (κ, q)) + (∑ κ < k, xdst (p, κ) · wr (κ, q)) + bias q .

  The two hidden layers end in max (·, 0); the last layer ends in the log-softmax of each row, with the row's
  maximum taken out first: with M = max (-∞, the row's maximum folded from -∞),

      (lin p q - M) - log (∑ q' < b, exp (lin p q' - M)) .

  Both programs compute exactly these expressions operation by operation (a change of float format is the
  identity on the extended reals, and a matrix product is the exact sum over the contracted index whichever
  unit forms it), so no law of the extended reals is needed beyond what names the same sum on both sides:
  the host's row sum starts from the constant 0, which is dropped by 0 + s = s.
  The literals -∞ and 0 are kept as the binary words both programs print; only the zero that starts
  the host's row sum is evaluated.

  This file states the expressions and reads each program's operations at an entry:
  the kernel's vector operations (`relu_vec_apply`, `lsm_vec_apply`) and the host's (`relu_host_apply`,
  `lsm_host_apply`), over any extents a, k, b.
-/
import Idealize.ShloMosaic.Lib.ValueIdx
import Idealize.ShloMosaic.Lib.ValueLayout
import Idealize.ShloMosaic.Lib.Pipeline.Value
import Idealize.ShloMosaic.PureOps.Ideal.Laws
import proofs.«128104_j8186207666616_1_alg».proof.Proof.LibPlainDot

noncomputable section

namespace Cert.Sage

open Idealize.ShloMosaic Idealize.ShloMosaic.ValueIdx

variable {a k b : ℕ}

/-- An [r, c] array of extended reals. -/
abbrev Mat (r c : ℕ) := (⟨2, ![r, c]⟩ : Shape).Idx → EReal

/-- The word both programs print for -∞, read at the ideal values. -/
abbrev negInf : EReal := Ideal.ofBits .f32 0xFF800000#32
/-- The word both programs print for 0, read at the ideal values. -/
abbrev zeroW : EReal := Ideal.ofBits .f32 0x00000000#32

/-- The stage before its activation: two matrix products and the bias, at row p and column q. -/
def lin (mean xdst : Mat a k) (wl wr : Mat k b) (bias : Fin b → EReal) (p : Fin a) (q : Fin b) : EReal :=
  (∑ κ : Fin k, mean (ix2 p κ) * wl (ix2 κ q)) + (∑ κ : Fin k, xdst (ix2 p κ) * wr (ix2 κ q)) + bias q

/-- A hidden layer: the stage cut off below at the printed zero. -/
def reluLin (mean xdst : Mat a k) (wl wr : Mat k b) (bias : Fin b → EReal) : Mat a b :=
  fun j => max (lin mean xdst wl wr bias (j 0) (j 1)) zeroW

/-- A row's maximum as both programs take it: folded from -∞, then once more against -∞. -/
def rowMax (z : Fin b → EReal) : EReal := max negInf ((Finset.univ : Finset (Fin b)).fold max negInf z)

/-- The log-softmax of a row z at column q. -/
def lsm (z : Fin b → EReal) (q : Fin b) : EReal :=
  (z q - rowMax z) - Ideal.log (∑ q' : Fin b, Ideal.exp (z q' - rowMax z))

/-- The last layer: the log-softmax of each row of the stage. -/
def lsmLin (mean xdst : Mat a k) (wl wr : Mat k b) (bias : Fin b → EReal) : Mat a b :=
  fun j => lsm (lin mean xdst wl wr bias (j 0)) (j 1)

theorem reluLin_apply (mean xdst : Mat a k) (wl wr : Mat k b) (bias : Fin b → EReal) (p : Fin a) (q : Fin b) :
    reluLin mean xdst wl wr bias (ix2 p q) = max (lin mean xdst wl wr bias p q) zeroW := rfl

theorem lsmLin_apply (mean xdst : Mat a k) (wl wr : Mat k b) (bias : Fin b → EReal) (p : Fin a) (q : Fin b) :
    lsmLin mean xdst wl wr bias (ix2 p q) = lsm (lin mean xdst wl wr bias p) q := rfl

end Cert.Sage
-- ==== Proof.StageVec.lean ====
/-
  The kernel's vector operations of one dense stage, read at an entry.

  The body loads its five blocks, narrows the four matrix operands (the identity on the extended reals), forms the two
  products into zero accumulators, adds them and the bias row repeated down the rows: that is `lin` at (p, q).
  A hidden layer then takes the maximum with the printed zero; the last layer takes each row's log-softmax:
  the row maximum folded from -∞ and taken once more against -∞, the shifted row, its exponentials summed along
  the row, the logarithm of that sum taken off the shifted entry.
-/
import proofs.«128104_j8186207666616_1_alg».proof.Proof.Spec

noncomputable section

namespace Cert.Sage

open Idealize.ShloMosaic Idealize.ShloMosaic.ValueIdx

variable {a k b : ℕ}

/-! ## The keepdims column forms -/

/-- An [a] array cast to [a, 1] reads, at (p, u), the operand at p. -/
theorem shapeCast_a_a1_apply {α : Type} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column repeated along the rows to [a, b] reads, at (p, q), the column at p. -/
theorem broadcastTo_a1_ab_apply {α : Type} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The stage before its activation -/

/-- The kernel's pre-activation block from its five loaded blocks. -/
def linVec (d : DotDims ⟨2, ![a, k]⟩ ⟨2, ![k, b]⟩ ⟨2, ![a, b]⟩)
    (x0 x1 : FVec Ideal ⟨2, ![a, k]⟩ .f32) (x2 x3 : FVec Ideal ⟨2, ![k, b]⟩ .f32) (x4 : FVec Ideal ⟨2, ![1, b]⟩ .f32)
    (hc : (⟨2, ![a, k]⟩ : Shape).ShapeCasts ⟨2, ![a, k]⟩) (hc4 : (⟨2, ![1, b]⟩ : Shape).ShapeCasts ⟨2, ![1, b]⟩)
    (hb : (⟨2, ![1, b]⟩ : Shape).Broadcasts ⟨2, ![a, b]⟩) (hlt : FTy.bf16.bits < FTy.f32.bits) : FVec Ideal ⟨2, ![a, b]⟩ .f32 :=
  addf
    (addf (matmul d none (truncf .bf16 (shapeCast ⟨2, ![a, k]⟩ x0 hc) hlt) (truncf .bf16 x2 hlt) (constant (F := Ideal) ⟨2, ![a, b]⟩ .f32 0x00000000#32))
          (matmul d none (truncf .bf16 (shapeCast ⟨2, ![a, k]⟩ x1 hc) hlt) (truncf .bf16 x3 hlt) (constant (F := Ideal) ⟨2, ![a, b]⟩ .f32 0x00000000#32)))
    (broadcastTo ⟨2, ![a, b]⟩ (shapeCast ⟨2, ![1, b]⟩ x4 hc4) hb)

theorem linVec_apply (d : DotDims ⟨2, ![a, k]⟩ ⟨2, ![k, b]⟩ ⟨2, ![a, b]⟩) (hd : PlainDot.Plain d) (hr : d.contr.rank = 1)
    (hs : d.contr.size ⟨0, by omega⟩ = k)
    (x0 x1 : FVec Ideal ⟨2, ![a, k]⟩ .f32) (x2 x3 : FVec Ideal ⟨2, ![k, b]⟩ .f32) (x4 : FVec Ideal ⟨2, ![1, b]⟩ .f32)
    (hc : (⟨2, ![a, k]⟩ : Shape).ShapeCasts ⟨2, ![a, k]⟩) (hc4 : (⟨2, ![1, b]⟩ : Shape).ShapeCasts ⟨2, ![1, b]⟩)
    (hb : (⟨2, ![1, b]⟩ : Shape).Broadcasts ⟨2, ![a, b]⟩) (hlt : FTy.bf16.bits < FTy.f32.bits) (p : Fin a) (q : Fin b) :
    linVec d x0 x1 x2 x3 x4 hc hc4 hb hlt (ix2 p q) = lin x0 x1 x2 x3 (fun q => x4 (ix2 (0 : Fin 1) q)) p q := by
  unfold linVec lin
  rw [shapeCast_self x0 hc, shapeCast_self x1 hc, shapeCast_self x4 hc4]
  rw [addf_apply, addf_apply, PlainDot.matmul_zero_apply hd hr hs, PlainDot.matmul_zero_apply hd hr hs,
    broadcastTo_1b_ab_apply x4 hb p q]
  rfl

/-- A hidden layer's stored block at an entry. -/
theorem relu_vec_apply (z : FVec Ideal ⟨2, ![a, b]⟩ .f32) (p : Fin a) (q : Fin b) :
    maximumf z (broadcast ⟨2, ![a, b]⟩ (Scalar.ofBits (F := Ideal) .f32 0x00000000#32)) (ix2 p q) = max (z (ix2 p q)) zeroW := rfl

/-! ## The last layer's log-softmax -/

/-- The kernel's log-softmax of a block, as its operations run. -/
def lsmVec (z : FVec Ideal ⟨2, ![a, b]⟩ .f32)
    (hred : (⟨2, ![a, b]⟩ : Shape).Reduces [(1 : Fin 2)] ⟨1, ![a]⟩) (hφ : FKind.Formats .f32)
    (haccM : (0xFF800000#32 : BitVec FTy.f32.bits) = FKind.maximumf.neutral .f32 hφ)
    (haccS : (0x00000000#32 : BitVec FTy.f32.bits) = FKind.add.neutral .f32 hφ)
    (hcA : (⟨1, ![a]⟩ : Shape).ShapeCasts ⟨2, ![a, 1]⟩) (hbA : (⟨2, ![a, 1]⟩ : Shape).Broadcasts ⟨2, ![a, b]⟩) :
    FVec Ideal ⟨2, ![a, b]⟩ .f32 :=
  have v17 : FVec Ideal ⟨1, ![a]⟩ .f32 := multiReduction .maximumf [(1 : Fin 2)] ⟨1, ![a]⟩ z 0xFF800000#32 hred hφ haccM
  have v19 : FVec Ideal ⟨1, ![a]⟩ .f32 := maximumf (broadcast ⟨1, ![a]⟩ (Scalar.ofBits (F := Ideal) .f32 0xFF800000#32)) v17
  have v21 : FVec Ideal ⟨2, ![a, b]⟩ .f32 := broadcastTo ⟨2, ![a, b]⟩ (shapeCast ⟨2, ![a, 1]⟩ v19 hcA) hbA
  have v22 : FVec Ideal ⟨2, ![a, b]⟩ .f32 := subf z v21
  have v24 : FVec Ideal ⟨1, ![a]⟩ .f32 := multiReduction .add [(1 : Fin 2)] ⟨1, ![a]⟩ (exp v22) 0x00000000#32 hred hφ haccS
  have v27 : FVec Ideal ⟨2, ![a, b]⟩ .f32 := broadcastTo ⟨2, ![a, b]⟩ (log (shapeCast ⟨2, ![a, 1]⟩ v24 hcA)) hbA
  subf v22 v27

theorem lsmVec_apply (z : FVec Ideal ⟨2, ![a, b]⟩ .f32)
    (hred : (⟨2, ![a, b]⟩ : Shape).Reduces [(1 : Fin 2)] ⟨1, ![a]⟩) (hφ : FKind.Formats .f32)
    (haccM : (0xFF800000#32 : BitVec FTy.f32.bits) = FKind.maximumf.neutral .f32 hφ)
    (haccS : (0x00000000#32 : BitVec FTy.f32.bits) = FKind.add.neutral .f32 hφ)
    (hcA : (⟨1, ![a]⟩ : Shape).ShapeCasts ⟨2, ![a, 1]⟩) (hbA : (⟨2, ![a, 1]⟩ : Shape).Broadcasts ⟨2, ![a, b]⟩)
    (p : Fin a) (q : Fin b) :
    lsmVec z hred hφ haccM haccS hcA hbA (ix2 p q) = lsm (fun q' => z (ix2 p q')) q := by
  have hlift : ∀ (p : Fin a) (κ : Fin b), hred.lift (ix1 p) κ = ix2 p κ := fun p κ => by
    funext ax; match ax with | ⟨0, _⟩ => rfl | ⟨1, _⟩ => rfl
  have hmax : ∀ p : Fin a, multiReduction .maximumf [(1 : Fin 2)] ⟨1, ![a]⟩ z 0xFF800000#32 hred hφ haccM (ix1 p)
      = (Finset.univ : Finset (Fin b)).fold max negInf (fun q' => z (ix2 p q')) := fun p => by
    refine (Ideal.multiReduction_maximumf_single z 0xFF800000#32 hred hφ haccM (ix1 p)).trans ?_
    exact congrArg (fun f => (Finset.univ : Finset (Fin b)).fold max negInf f) (funext fun κ => congrArg z (hlift p κ))
  have hshift : ∀ (p : Fin a) (q : Fin b),
      subf z (broadcastTo ⟨2, ![a, b]⟩ (shapeCast ⟨2, ![a, 1]⟩
        (maximumf (broadcast ⟨1, ![a]⟩ (Scalar.ofBits (F := Ideal) .f32 0xFF800000#32))
          (multiReduction .maximumf [(1 : Fin 2)] ⟨1, ![a]⟩ z 0xFF800000#32 hred hφ haccM)) hcA) hbA) (ix2 p q)
      = z (ix2 p q) - rowMax (fun q' => z (ix2 p q')) := fun p q => by
    rw [subf_apply, broadcastTo_a1_ab_apply _ hbA p q, shapeCast_a_a1_apply _ hcA p 0, maximumf_apply, hmax p]
    rfl
  unfold lsmVec lsm
  show subf _ _ (ix2 p q) = _
  rw [subf_apply, hshift p q, broadcastTo_a1_ab_apply _ hbA p q]
  show _ - Ideal.log (shapeCast ⟨2, ![a, 1]⟩ _ hcA (ix2 p (0 : Fin 1))) = _
  rw [shapeCast_a_a1_apply _ hcA p 0]
  refine congrArg (fun s => (z (ix2 p q) - rowMax (fun q' => z (ix2 p q'))) - Ideal.log s) ?_
  refine (Ideal.multiReduction_add_single _ 0x00000000#32 hred hφ haccS (ix1 p)).trans ?_
  refine Finset.sum_congr rfl fun κ _ => ?_
  rw [hlift p κ]
  show Ideal.exp (subf z _ (ix2 p κ)) = _
  rw [hshift p κ]

end Cert.Sage
-- ==== Proof.StageBlock.lean ====
/-
  A stage read on a block of rows is the stage read on the whole arrays.

  The kernel works on `tm` rows at a time: at a grid point it holds rows P = t·tm + p of `mean` and `xdst`, all of
  `wl`, `wr` and the bias row. Since `lin` at (p, q) only reads row p of the two row operands and column q of the two
  weight operands, it is `lin` of the whole arrays at (P, q); the same holds row by row, so for a row's log-softmax.
-/
import proofs.«128104_j8186207666616_1_alg».proof.Proof.Spec

noncomputable section

namespace Cert.Sage

open Idealize.ShloMosaic Idealize.ShloMosaic.ValueIdx

variable {tm M K N : ℕ}

/-- The stage on a block whose rows and columns are those of the whole arrays. -/
theorem lin_of_blocks (A0 A1 : Mat M K) (A2 A3 : Mat K N) (bias : Fin N → EReal)
    (x0 x1 : Mat tm K) (x2 x3 : Mat K N) (b4 : Fin N → EReal) (P : Fin M) (p : Fin tm) (q Q : Fin N)
    (h0 : ∀ κ, x0 (ix2 p κ) = A0 (ix2 P κ)) (h1 : ∀ κ, x1 (ix2 p κ) = A1 (ix2 P κ))
    (h2 : ∀ κ, x2 (ix2 κ q) = A2 (ix2 κ Q)) (h3 : ∀ κ, x3 (ix2 κ q) = A3 (ix2 κ Q)) (h4 : b4 q = bias Q) :
    lin x0 x1 x2 x3 b4 p q = lin A0 A1 A2 A3 bias P Q := by
  unfold lin
  simp only [h0, h1, h2, h3, h4]

/-- The same for a whole row, when the block's columns are the arrays' columns. -/
theorem lin_row_of_blocks (A0 A1 : Mat M K) (A2 A3 : Mat K N) (bias : Fin N → EReal)
    (x0 x1 : Mat tm K) (x2 x3 : Mat K N) (b4 : Fin N → EReal) (P : Fin M) (p : Fin tm)
    (h0 : ∀ κ, x0 (ix2 p κ) = A0 (ix2 P κ)) (h1 : ∀ κ, x1 (ix2 p κ) = A1 (ix2 P κ))
    (h2 : ∀ κ q, x2 (ix2 κ q) = A2 (ix2 κ q)) (h3 : ∀ κ q, x3 (ix2 κ q) = A3 (ix2 κ q)) (h4 : ∀ q, b4 q = bias q) :
    lin x0 x1 x2 x3 b4 p = lin A0 A1 A2 A3 bias P :=
  funext fun q => lin_of_blocks A0 A1 A2 A3 bias x0 x1 x2 x3 b4 P p q q h0 h1 (fun κ => h2 κ q) (fun κ => h3 κ q) (h4 q)

end Cert.Sage
-- ==== Proof.Region0.lean ====
/-
  Layer 0's dense stage on the TensorCore: what its 50 grid points leave in the output array.

  Point t holds rows 4000·t … 4000·t + 3999 of the neighbour means and of the targets' features (two [4000, 100]
  blocks), the two [100, 256] weight matrices and the [1, 256] bias row whole, and writes back rows
  4000·t … 4000·t + 3999 of the [200000, 256] output. Its body's stored value at (p, q) is
  max (lin … p q, 0) of the blocks (the vector operations read at an entry), and `lin` on a block of rows is `lin`
  on the whole arrays at row 4000·t + p. So each written block is the block of ONE whole-array function,
  `reluLin` of the arrays the region is entered with, and the 50 blocks tile the array (row r lies in block r / 4000):
  the array ends holding that function.
-/
import proofs.«128104_j8186207666616_1_alg».proof.Proof.Gen.KernelIdeal.Frame
import proofs.«128104_j8186207666616_1_alg».proof.Proof.StageVec
import proofs.«128104_j8186207666616_1_alg».proof.Proof.StageBlock
import Idealize.ShloMosaic.Lib.Pipeline.Value

noncomputable section

namespace Cert.KernelIdeal.Layer0

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- The body's dimension numbers are a plain matrix product's. -/
theorem plain : Cert.PlainDot.Plain dot_S4000x100_S100x256_S4000x256_1_0_0_1_n_n := ⟨rfl, rfl, rfl, rfl, rfl, rfl⟩

/-- The body's stored value at an entry, from its five loaded blocks. -/
theorem pay_apply (x0 x1 : FVec Ideal S4000x100 .f32) (x2 x3 : FVec Ideal S100x256 .f32) (x4 : FVec Ideal S1x256 .f32)
    (p : Fin 4000) (q : Fin 256) :
    k0_pay1 (F := Ideal) x0 x1 x2 x3 x4 (ix2 p q)
      = max (Cert.Sage.lin x0 x1 x2 x3 (fun q => x4 (ix2 (0 : Fin 1) q)) p q) Cert.Sage.zeroW := by
  unfold k0_pay1
  refine (Cert.Sage.relu_vec_apply _ p q).trans ?_
  exact congrArg (fun v => max v Cert.Sage.zeroW)
    (Cert.Sage.linVec_apply _ plain rfl rfl x0 x1 x2 x3 x4 _ _ _ _ p q)

/-- The index maps over the grid: the row blocks move with the point, everything else stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The arrays the region is entered with, at their literal types. -/
abbrev mean (c : Dev nD) : S200000x100.Idx → EReal := V c main_v18
abbrev xdst (c : Dev nD) : S200000x100.Idx → EReal := V c main_v19
abbrev wl (c : Dev nD) : S100x256.Idx → EReal := V c main_arg7
abbrev wr (c : Dev nD) : S100x256.Idx → EReal := V c main_arg8
abbrev brow (c : Dev nD) : S1x256.Idx → EReal := V c main_v20

/-- What the output array ends holding. -/
def out (c : Dev nD) : S200000x256.Idx → EReal :=
  Cert.Sage.reluLin (mean V c) (xdst V c) (wl V c) (wr V c) (fun q => brow V c (ix2 (0 : Fin 1) q))

/-- The blocks point t holds, at their literal types. -/
abbrev b0 (c : Dev nD) (t : Fin cfg0.N) : FVec Ideal S4000x100 .f32 := iblk0 V c 0 t
abbrev b1 (c : Dev nD) (t : Fin cfg0.N) : FVec Ideal S4000x100 .f32 := iblk0 V c 1 t
abbrev b2 (c : Dev nD) (t : Fin cfg0.N) : FVec Ideal S100x256 .f32 := iblk0 V c 2 t
abbrev b3 (c : Dev nD) (t : Fin cfg0.N) : FVec Ideal S100x256 .f32 := iblk0 V c 3 t
abbrev b4 (c : Dev nD) (t : Fin cfg0.N) : FVec Ideal S1x256 .f32 := iblk0 V c 4 t

/-- A row block's entry is the array's, 4000·t rows down. -/
theorem b0_apply (c : Dev nD) (t : Fin cfg0.N) (p : Fin 4000) (κ : Fin 100) (P : Fin 200000) (hP : P.val = t.val * 4000 + p.val) :
    b0 V c t (ix2 p κ) = mean V c (ix2 P κ) := by
  obtain ⟨e0, e1, -⟩ := idx_facts t
  show V c main_v18 (((cfg0.win 0).blk t).view.emb (ix2 p κ)) = V c main_v18 (ix2 P κ)
  refine congrArg (V c main_v18) (funext fun ax => Fin.ext ?_)
  match ax with
  | ⟨0, _⟩ => show win0_0.index t (0 : Fin 2) * 4000 + 1 * p.val = P.val; omega
  | ⟨1, _⟩ => show win0_0.index t (1 : Fin 2) * 100 + 1 * κ.val = κ.val; omega

theorem b1_apply (c : Dev nD) (t : Fin cfg0.N) (p : Fin 4000) (κ : Fin 100) (P : Fin 200000) (hP : P.val = t.val * 4000 + p.val) :
    b1 V c t (ix2 p κ) = xdst V c (ix2 P κ) := by
  obtain ⟨-, -, e0, e1, -⟩ := idx_facts t
  show V c main_v19 (((cfg0.win 1).blk t).view.emb (ix2 p κ)) = V c main_v19 (ix2 P κ)
  refine congrArg (V c main_v19) (funext fun ax => Fin.ext ?_)
  match ax with
  | ⟨0, _⟩ => show win0_1.index t (0 : Fin 2) * 4000 + 1 * p.val = P.val; omega
  | ⟨1, _⟩ => show win0_1.index t (1 : Fin 2) * 100 + 1 * κ.val = κ.val; omega

/-- The weight blocks and the bias block are the whole arrays. -/
theorem b2_apply (c : Dev nD) (t : Fin cfg0.N) (κ : Fin 100) (q : Fin 256) : b2 V c t (ix2 κ q) = wl V c (ix2 κ q) := by
  obtain ⟨-, -, -, -, e0, e1, -⟩ := idx_facts t
  show V c main_arg7 (((cfg0.win 2).blk t).view.emb (ix2 κ q)) = V c main_arg7 (ix2 κ q)
  refine congrArg (V c main_arg7) (funext fun ax => Fin.ext ?_)
  match ax with
  | ⟨0, _⟩ => show win0_2.index t (0 : Fin 2) * 100 + 1 * κ.val = κ.val; omega
  | ⟨1, _⟩ => show win0_2.index t (1 : Fin 2) * 256 + 1 * q.val = q.val; omega

theorem b3_apply (c : Dev nD) (t : Fin cfg0.N) (κ : Fin 100) (q : Fin 256) : b3 V c t (ix2 κ q) = wr V c (ix2 κ q) := by
  obtain ⟨-, -, -, -, -, -, e0, e1, -⟩ := idx_facts t
  show V c main_arg8 (((cfg0.win 3).blk t).view.emb (ix2 κ q)) = V c main_arg8 (ix2 κ q)
  refine congrArg (V c main_arg8) (funext fun ax => Fin.ext ?_)
  match ax with
  | ⟨0, _⟩ => show win0_3.index t (0 : Fin 2) * 100 + 1 * κ.val = κ.val; omega
  | ⟨1, _⟩ => show win0_3.index t (1 : Fin 2) * 256 + 1 * q.val = q.val; omega

theorem b4_apply (c : Dev nD) (t : Fin cfg0.N) (u : Fin 1) (q : Fin 256) : b4 V c t (ix2 u q) = brow V c (ix2 u q) := by
  obtain ⟨-, -, -, -, -, -, -, -, e0, e1, -⟩ := idx_facts t
  show V c main_v20 (((cfg0.win 4).blk t).view.emb (ix2 u q)) = V c main_v20 (ix2 u q)
  refine congrArg (V c main_v20) (funext fun ax => Fin.ext ?_)
  match ax with
  | ⟨0, _⟩ => show win0_4.index t (0 : Fin 2) * 1 + 1 * u.val = u.val; omega
  | ⟨1, _⟩ => show win0_4.index t (1 : Fin 2) * 256 + 1 * q.val = q.val; omega

/-- WHAT POINT t WRITES BACK is block t of `out`. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S4000x100) hz, View.ld_unit_zero (S := S100x256) hz, View.ld_unit_zero (S := S1x256) hz]
  funext j
  obtain ⟨p, q, rfl⟩ : ∃ (p : Fin 4000) (q : Fin 256), j = ix2 p q := ⟨j 0, j 1, eq_ix2 j⟩
  obtain ⟨-, -, -, -, -, -, -, -, -, -, e0, e1⟩ := idx_facts t
  have hp := p.isLt
  have ht := t.isLt
  have hPlt : t.val * 4000 + p.val < 200000 := by have : t.val < 50 := ht; omega
  show k0_pay1 (F := Ideal) (b0 V c t) (b1 V c t) (b2 V c t) (b3 V c t) (b4 V c t) (ix2 p q)
    = out V c (((cfg0.win 5).blk t).view.emb (ix2 p q))
  refine (pay_apply (b0 V c t) (b1 V c t) (b2 V c t) (b3 V c t) (b4 V c t) p q).trans ?_
  have hemb : ((cfg0.win 5).blk t).view.emb (ix2 p q) = ix2 (⟨t.val * 4000 + p.val, hPlt⟩ : Fin 200000) q := by
    funext ax; apply Fin.ext
    match ax with
    | ⟨0, _⟩ => show win0_5.index t (0 : Fin 2) * 4000 + 1 * p.val = t.val * 4000 + p.val; omega
    | ⟨1, _⟩ => show win0_5.index t (1 : Fin 2) * 256 + 1 * q.val = q.val; omega
  rw [hemb]
  show _ = max (Cert.Sage.lin (mean V c) (xdst V c) (wl V c) (wr V c) (fun q => brow V c (ix2 (0 : Fin 1) q)) ⟨t.val * 4000 + p.val, hPlt⟩ q) Cert.Sage.zeroW
  refine congrArg (fun v => max v Cert.Sage.zeroW) ?_
  exact Cert.Sage.lin_of_blocks (mean V c) (xdst V c) (wl V c) (wr V c) (fun q => brow V c (ix2 (0 : Fin 1) q))
    (b0 V c t) (b1 V c t) (b2 V c t) (b3 V c t) (fun q => b4 V c t (ix2 (0 : Fin 1) q)) ⟨t.val * 4000 + p.val, hPlt⟩ p q q
    (fun κ => b0_apply V c t p κ _ rfl) (fun κ => b1_apply V c t p κ _ rfl)
    (fun κ => b2_apply V c t κ q) (fun κ => b3_apply V c t κ q) (b4_apply V c t 0 q)

/-- An index of the array is in point t's block iff each coordinate is in the block's range on its axis. -/
theorem mem_blk (t : Fin cfg0.N) (i : S200000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v21).slice (win0_5.rect t)).set ↔ _
  rw [View.set_slice_whole, Rect.mem_set_unit]
  exact Iff.rfl

/-- Every index of the array lies in some point's block: row r in block r / 4000. -/
theorem cover (i : S200000x256.Idx) : ∃ t : Fin cfg0.N, (cfg0.win 5).flush t = true ∧ i ∈ ((cfg0.win 5).blk t).view.set := by
  have hi0 : (i 0).val < 200000 := (i 0).isLt
  have hi1 : (i 1).val < 256 := (i 1).isLt
  refine ⟨⟨(i 0).val / 4000, by show (i 0).val / 4000 < 50; omega⟩, flush0_5 _, ?_⟩
  rw [mem_blk]
  obtain ⟨-, -, -, -, -, -, -, -, -, -, e0, e1⟩ := idx_facts ⟨(i 0).val / 4000, by show (i 0).val / 4000 < 50; omega⟩
  intro a
  match a with
  | ⟨0, _⟩ =>
    show win0_5.index _ (0 : Fin 2) * 4000 ≤ (i 0).val ∧ (i 0).val < win0_5.index _ (0 : Fin 2) * 4000 + 4000
    rw [e0]; show (i 0).val / 4000 * 4000 ≤ (i 0).val ∧ (i 0).val < (i 0).val / 4000 * 4000 + 4000; omega
  | ⟨1, _⟩ =>
    show win0_5.index _ (1 : Fin 2) * 256 ≤ (i 1).val ∧ (i 1).val < win0_5.index _ (1 : Fin 2) * 256 + 256
    rw [e1]; omega

/-- THE ARRAY after the region: `out` of the arrays it was entered with. -/
theorem final (c : Dev nD) : (dat0 V c).arrAt 5 cfg0.N = out V c :=
  (dat0 V c).arrAt_eq_of_cover 5 (out V c) (fun t _ => flushed_eq V c t) (cover)

/-- The same, with the entry arrays named: when the region is entered with means M, targets' rows X, weights WL, WR and
    bias row B, the output array ends at `reluLin` of them. -/
theorem final_of (c : Dev nD) (M X : S200000x100.Idx → EReal) (WL WR : S100x256.Idx → EReal) (B : Fin 256 → EReal)
    (hM : V c main_v18 = M) (hX : V c main_v19 = X) (hWL : V c main_arg7 = WL) (hWR : V c main_arg8 = WR)
    (hB : ∀ q : Fin 256, V c main_v20 (ix2 (0 : Fin 1) q) = B q) :
    (dat0 V c).arrAt 5 cfg0.N = Cert.Sage.reluLin M X WL WR B := by
  have hB' : (fun q : Fin 256 => brow V c (ix2 (0 : Fin 1) q)) = B := funext hB
  subst hM hX hWL hWR hB'
  exact final V c

end Cert.KernelIdeal.Layer0
-- ==== Proof.Region1.lean ====
/-
  Layer 1's dense stage on the TensorCore: what its 10 grid points leave in the output array.

  Point t holds rows 2000·t … 2000·t + 1999 of the neighbour means and of the targets' features (two [2000, 256]
  blocks), the two [256, 256] weight matrices and the [1, 256] bias row whole, and writes back rows
  2000·t … 2000·t + 1999 of the [20000, 256] output. Its body's stored value at (p, q) is
  max (lin … p q, 0) of the blocks (the vector operations read at an entry), and `lin` on a block of rows is `lin`
  on the whole arrays at row 2000·t + p. So each written block is the block of ONE whole-array function,
  `reluLin` of the arrays the region is entered with, and the 10 blocks tile the array (row r lies in block r / 2000):
  the array ends holding that function.
-/
import proofs.«128104_j8186207666616_1_alg».proof.Proof.Gen.KernelIdeal.Frame
import proofs.«128104_j8186207666616_1_alg».proof.Proof.StageVec
import proofs.«128104_j8186207666616_1_alg».proof.Proof.StageBlock
import Idealize.ShloMosaic.Lib.Pipeline.Value

noncomputable section

namespace Cert.KernelIdeal.Layer1

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- The body's dimension numbers are a plain matrix product's. -/
theorem plain : Cert.PlainDot.Plain dot_S2000x256_S256x256_S2000x256_1_0_0_1_n_n := ⟨rfl, rfl, rfl, rfl, rfl, rfl⟩

/-- The body's stored value at an entry, from its five loaded blocks. -/
theorem pay_apply (x0 x1 : FVec Ideal S2000x256 .f32) (x2 x3 : FVec Ideal S256x256 .f32) (x4 : FVec Ideal S1x256 .f32)
    (p : Fin 2000) (q : Fin 256) :
    k1_pay1 (F := Ideal) x0 x1 x2 x3 x4 (ix2 p q)
      = max (Cert.Sage.lin x0 x1 x2 x3 (fun q => x4 (ix2 (0 : Fin 1) q)) p q) Cert.Sage.zeroW := by
  unfold k1_pay1
  refine (Cert.Sage.relu_vec_apply _ p q).trans ?_
  exact congrArg (fun v => max v Cert.Sage.zeroW)
    (Cert.Sage.linVec_apply _ plain rfl rfl x0 x1 x2 x3 x4 _ _ _ _ p q)

/-- The index maps over the grid: the row blocks move with the point, everything else stays at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The arrays the region is entered with, at their literal types. -/
abbrev mean (c : Dev nD) : S20000x256.Idx → EReal := V c main_v40
abbrev xdst (c : Dev nD) : S20000x256.Idx → EReal := V c main_v41
abbrev wl (c : Dev nD) : S256x256.Idx → EReal := V c main_arg10
abbrev wr (c : Dev nD) : S256x256.Idx → EReal := V c main_arg11
abbrev brow (c : Dev nD) : S1x256.Idx → EReal := V c main_v42

/-- What the output array ends holding. -/
def out (c : Dev nD) : S20000x256.Idx → EReal :=
  Cert.Sage.reluLin (mean V c) (xdst V c) (wl V c) (wr V c) (fun q => brow V c (ix2 (0 : Fin 1) q))

/-- The blocks point t holds, at their literal types. -/
abbrev b0 (c : Dev nD) (t : Fin cfg1.N) : FVec Ideal S2000x256 .f32 := iblk1 V c 0 t
abbrev b1 (c : Dev nD) (t : Fin cfg1.N) : FVec Ideal S2000x256 .f32 := iblk1 V c 1 t
abbrev b2 (c : Dev nD) (t : Fin cfg1.N) : FVec Ideal S256x256 .f32 := iblk1 V c 2 t
abbrev b3 (c : Dev nD) (t : Fin cfg1.N) : FVec Ideal S256x256 .f32 := iblk1 V c 3 t
abbrev b4 (c : Dev nD) (t : Fin cfg1.N) : FVec Ideal S1x256 .f32 := iblk1 V c 4 t

/-- A row block's entry is the array's, 2000·t rows down. -/
theorem b0_apply (c : Dev nD) (t : Fin cfg1.N) (p : Fin 2000) (κ : Fin 256) (P : Fin 20000) (hP : P.val = t.val * 2000 + p.val) :
    b0 V c t (ix2 p κ) = mean V c (ix2 P κ) := by
  obtain ⟨e0, e1, -⟩ := idx_facts t
  show V c main_v40 (((cfg1.win 0).blk t).view.emb (ix2 p κ)) = V c main_v40 (ix2 P κ)
  refine congrArg (V c main_v40) (funext fun ax => Fin.ext ?_)
  match ax with
  | ⟨0, _⟩ => show win1_0.index t (0 : Fin 2) * 2000 + 1 * p.val = P.val; omega
  | ⟨1, _⟩ => show win1_0.index t (1 : Fin 2) * 256 + 1 * κ.val = κ.val; omega

theorem b1_apply (c : Dev nD) (t : Fin cfg1.N) (p : Fin 2000) (κ : Fin 256) (P : Fin 20000) (hP : P.val = t.val * 2000 + p.val) :
    b1 V c t (ix2 p κ) = xdst V c (ix2 P κ) := by
  obtain ⟨-, -, e0, e1, -⟩ := idx_facts t
  show V c main_v41 (((cfg1.win 1).blk t).view.emb (ix2 p κ)) = V c main_v41 (ix2 P κ)
  refine congrArg (V c main_v41) (funext fun ax => Fin.ext ?_)
  match ax with
  | ⟨0, _⟩ => show win1_1.index t (0 : Fin 2) * 2000 + 1 * p.val = P.val; omega
  | ⟨1, _⟩ => show win1_1.index t (1 : Fin 2) * 256 + 1 * κ.val = κ.val; omega

/-- The weight blocks and the bias block are the whole arrays. -/
theorem b2_apply (c : Dev nD) (t : Fin cfg1.N) (κ : Fin 256) (q : Fin 256) : b2 V c t (ix2 κ q) = wl V c (ix2 κ q) := by
  obtain ⟨-, -, -, -, e0, e1, -⟩ := idx_facts t
  show V c main_arg10 (((cfg1.win 2).blk t).view.emb (ix2 κ q)) = V c main_arg10 (ix2 κ q)
  refine congrArg (V c main_arg10) (funext fun ax => Fin.ext ?_)
  match ax with
  | ⟨0, _⟩ => show win1_2.index t (0 : Fin 2) * 256 + 1 * κ.val = κ.val; omega
  | ⟨1, _⟩ => show win1_2.index t (1 : Fin 2) * 256 + 1 * q.val = q.val; omega

theorem b3_apply (c : Dev nD) (t : Fin cfg1.N) (κ : Fin 256) (q : Fin 256) : b3 V c t (ix2 κ q) = wr V c (ix2 κ q) := by
  obtain ⟨-, -, -, -, -, -, e0, e1, -⟩ := idx_facts t
  show V c main_arg11 (((cfg1.win 3).blk t).view.emb (ix2 κ q)) = V c main_arg11 (ix2 κ q)
  refine congrArg (V c main_arg11) (funext fun ax => Fin.ext ?_)
  match ax with
  | ⟨0, _⟩ => show win1_3.index t (0 : Fin 2) * 256 + 1 * κ.val = κ.val; omega
  | ⟨1, _⟩ => show win1_3.index t (1 : Fin 2) * 256 + 1 * q.val = q.val; omega

theorem b4_apply (c : Dev nD) (t : Fin cfg1.N) (u : Fin 1) (q : Fin 256) : b4 V c t (ix2 u q) = brow V c (ix2 u q) := by
  obtain ⟨-, -, -, -, -, -, -, -, e0, e1, -⟩ := idx_facts t
  show V c main_v42 (((cfg1.win 4).blk t).view.emb (ix2 u q)) = V c main_v42 (ix2 u q)
  refine congrArg (V c main_v42) (funext fun ax => Fin.ext ?_)
  match ax with
  | ⟨0, _⟩ => show win1_4.index t (0 : Fin 2) * 1 + 1 * u.val = u.val; omega
  | ⟨1, _⟩ => show win1_4.index t (1 : Fin 2) * 256 + 1 * q.val = q.val; omega

/-- WHAT POINT t WRITES BACK is block t of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  obtain ⟨-, -, -, -, -, -, -, -, -, -, e0, e1⟩ := idx_facts t
  have hp := p.isLt
  have ht := t.isLt
  have hPlt : t.val * 2000 + p.val < 20000 := by have : t.val < 10 := ht; omega
  show k1_pay1 (F := Ideal) (b0 V c t) (b1 V c t) (b2 V c t) (b3 V c t) (b4 V c t) (ix2 p q)
    = out V c (((cfg1.win 5).blk t).view.emb (ix2 p q))
  refine (pay_apply (b0 V c t) (b1 V c t) (b2 V c t) (b3 V c t) (b4 V c t) p q).trans ?_
  have hemb : ((cfg1.win 5).blk t).view.emb (ix2 p q) = ix2 (⟨t.val * 2000 + p.val, hPlt⟩ : Fin 20000) q := by
    funext ax; apply Fin.ext
    match ax with
    | ⟨0, _⟩ => show win1_5.index t (0 : Fin 2) * 2000 + 1 * p.val = t.val * 2000 + p.val; omega
    | ⟨1, _⟩ => show win1_5.index t (1 : Fin 2) * 256 + 1 * q.val = q.val; omega
  rw [hemb]
  show _ = max (Cert.Sage.lin (mean V c) (xdst V c) (wl V c) (wr V c) (fun q => brow V c (ix2 (0 : Fin 1) q)) ⟨t.val * 2000 + p.val, hPlt⟩ q) Cert.Sage.zeroW
  refine congrArg (fun v => max v Cert.Sage.zeroW) ?_
  exact Cert.Sage.lin_of_blocks (mean V c) (xdst V c) (wl V c) (wr V c) (fun q => brow V c (ix2 (0 : Fin 1) q))
    (b0 V c t) (b1 V c t) (b2 V c t) (b3 V c t) (fun q => b4 V c t (ix2 (0 : Fin 1) q)) ⟨t.val * 2000 + p.val, hPlt⟩ p q q
    (fun κ => b0_apply V c t p κ _ rfl) (fun κ => b1_apply V c t p κ _ rfl)
    (fun κ => b2_apply V c t κ q) (fun κ => b3_apply V c t κ q) (b4_apply V c t 0 q)

/-- An index of the array is in point t's block iff each coordinate is in the block's range on its axis. -/
theorem mem_blk (t : Fin cfg1.N) (i : S20000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v43).slice (win1_5.rect t)).set ↔ _
  rw [View.set_slice_whole, Rect.mem_set_unit]
  exact Iff.rfl

/-- Every index of the array lies in some point's block: row r in block r / 2000. -/
theorem cover (i : S20000x256.Idx) : ∃ t : Fin cfg1.N, (cfg1.win 5).flush t = true ∧ i ∈ ((cfg1.win 5).blk t).view.set := by
  have hi0 : (i 0).val < 20000 := (i 0).isLt
  have hi1 : (i 1).val < 256 := (i 1).isLt
  refine ⟨⟨(i 0).val / 2000, by show (i 0).val / 2000 < 10; omega⟩, flush1_5 _, ?_⟩
  rw [mem_blk]
  obtain ⟨-, -, -, -, -, -, -, -, -, -, e0, e1⟩ := idx_facts ⟨(i 0).val / 2000, by show (i 0).val / 2000 < 10; omega⟩
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 256 ≤ (i 1).val ∧ (i 1).val < win1_5.index _ (1 : Fin 2) * 256 + 256
    rw [e1]; omega

/-- THE ARRAY after the region: `out` of the arrays it was entered with. -/
theorem final (c : Dev nD) : (dat1 V c).arrAt 5 cfg1.N = out V c :=
  (dat1 V c).arrAt_eq_of_cover 5 (out V c) (fun t _ => flushed_eq V c t) (cover)

/-- The same, with the entry arrays named: when the region is entered with means M, targets' rows X, weights WL, WR and
    bias row B, the output array ends at `reluLin` of them. -/
theorem final_of (c : Dev nD) (M X : S20000x256.Idx → EReal) (WL WR : S256x256.Idx → EReal) (B : Fin 256 → EReal)
    (hM : V c main_v40 = M) (hX : V c main_v41 = X) (hWL : V c main_arg10 = WL) (hWR : V c main_arg11 = WR)
    (hB : ∀ q : Fin 256, V c main_v42 (ix2 (0 : Fin 1) q) = B q) :
    (dat1 V c).arrAt 5 cfg1.N = Cert.Sage.reluLin M X WL WR B := by
  have hB' : (fun q : Fin 256 => brow V c (ix2 (0 : Fin 1) q)) = B := funext hB
  subst hM hX hWL hWR hB'
  exact final V c

end Cert.KernelIdeal.Layer1
-- ==== Proof.Region2.lean ====
/-
  The last layer's dense stage on the TensorCore: one grid point over the whole arrays.

  The single point holds the [4096, 256] neighbour means and targets' features, the two [256, 47] weight matrices
  and the [1, 47] bias row, all whole, and writes back the whole [4096, 47] output. Its body's stored value at (p, q)
  is the log-softmax of row p of `lin` of the blocks, at column q (the vector operations read at an entry), and the
  blocks are the arrays themselves. So the written block is the one block of `lsmLin` of the arrays the region is
  entered with, and it covers the array.
-/
import proofs.«128104_j8186207666616_1_alg».proof.Proof.Gen.KernelIdeal.Frame
import proofs.«128104_j8186207666616_1_alg».proof.Proof.StageVec
import proofs.«128104_j8186207666616_1_alg».proof.Proof.StageBlock
import Idealize.ShloMosaic.Lib.Pipeline.Value

noncomputable section

namespace Cert.KernelIdeal.Layer2

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- The body's dimension numbers are a plain matrix product's. -/
theorem plain : Cert.PlainDot.Plain dot_S4096x256_S256x47_S4096x47_1_0_0_1_n_n := ⟨rfl, rfl, rfl, rfl, rfl, rfl⟩

/-- The body's stored value at an entry, from its five loaded blocks: the log-softmax of the stage's row. -/
theorem pay_apply (x0 x1 : FVec Ideal S4096x256 .f32) (x2 x3 : FVec Ideal S256x47 .f32) (x4 : FVec Ideal S1x47 .f32)
    (p : Fin 4096) (q : Fin 47) :
    k2_pay1 (F := Ideal) x0 x1 x2 x3 x4 (ix2 p q)
      = Cert.Sage.lsm (Cert.Sage.lin x0 x1 x2 x3 (fun q => x4 (ix2 (0 : Fin 1) q)) p) q := by
  unfold k2_pay1
  refine (Cert.Sage.lsmVec_apply (Cert.Sage.linVec dot_S4096x256_S256x47_S4096x47_1_0_0_1_n_n x0 x1 x2 x3 x4
    shapeCasts_S4096x256_S4096x256 shapeCasts_S1x47_S1x47 broadcasts_S1x47_S4096x47 bitsLt_bf16_f32)
    reduces_S4096x47_S4096 (.inl rfl) rfl rfl shapeCasts_S4096_S4096x1 broadcasts_S4096x1_S4096x47 p q).trans ?_
  exact congrArg (fun z => Cert.Sage.lsm z q)
    (funext fun q' => Cert.Sage.linVec_apply _ plain rfl rfl x0 x1 x2 x3 x4 _ _ _ _ p q')

/-- The index maps over the grid: every window stays at block 0. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The arrays the region is entered with, at their literal types. -/
abbrev mean (c : Dev nD) : S4096x256.Idx → EReal := V c main_v62
abbrev xdst (c : Dev nD) : S4096x256.Idx → EReal := V c main_v63
abbrev wl (c : Dev nD) : S256x47.Idx → EReal := V c main_arg13
abbrev wr (c : Dev nD) : S256x47.Idx → EReal := V c main_arg14
abbrev brow (c : Dev nD) : S1x47.Idx → EReal := V c main_v64

/-- What the output array ends holding. -/
def out (c : Dev nD) : S4096x47.Idx → EReal :=
  Cert.Sage.lsmLin (mean V c) (xdst V c) (wl V c) (wr V c) (fun q => brow V c (ix2 (0 : Fin 1) q))

/-- The blocks the point holds, at their literal types. -/
abbrev b0 (c : Dev nD) (t : Fin cfg2.N) : FVec Ideal S4096x256 .f32 := iblk2 V c 0 t
abbrev b1 (c : Dev nD) (t : Fin cfg2.N) : FVec Ideal S4096x256 .f32 := iblk2 V c 1 t
abbrev b2 (c : Dev nD) (t : Fin cfg2.N) : FVec Ideal S256x47 .f32 := iblk2 V c 2 t
abbrev b3 (c : Dev nD) (t : Fin cfg2.N) : FVec Ideal S256x47 .f32 := iblk2 V c 3 t
abbrev b4 (c : Dev nD) (t : Fin cfg2.N) : FVec Ideal S1x47 .f32 := iblk2 V c 4 t

/-- Each block is its whole array. -/
theorem b0_apply (c : Dev nD) (t : Fin cfg2.N) (p : Fin 4096) (κ : Fin 256) : b0 V c t (ix2 p κ) = mean V c (ix2 p κ) := by
  obtain ⟨e0, e1, -⟩ := idx_facts t
  show V c main_v62 (((cfg2.win 0).blk t).view.emb (ix2 p κ)) = V c main_v62 (ix2 p κ)
  refine congrArg (V c main_v62) (funext fun ax => Fin.ext ?_)
  match ax with
  | ⟨0, _⟩ => show win2_0.index t (0 : Fin 2) * 4096 + 1 * p.val = p.val; omega
  | ⟨1, _⟩ => show win2_0.index t (1 : Fin 2) * 256 + 1 * κ.val = κ.val; omega

theorem b1_apply (c : Dev nD) (t : Fin cfg2.N) (p : Fin 4096) (κ : Fin 256) : b1 V c t (ix2 p κ) = xdst V c (ix2 p κ) := by
  obtain ⟨-, -, e0, e1, -⟩ := idx_facts t
  show V c main_v63 (((cfg2.win 1).blk t).view.emb (ix2 p κ)) = V c main_v63 (ix2 p κ)
  refine congrArg (V c main_v63) (funext fun ax => Fin.ext ?_)
  match ax with
  | ⟨0, _⟩ => show win2_1.index t (0 : Fin 2) * 4096 + 1 * p.val = p.val; omega
  | ⟨1, _⟩ => show win2_1.index t (1 : Fin 2) * 256 + 1 * κ.val = κ.val; omega

theorem b2_apply (c : Dev nD) (t : Fin cfg2.N) (κ : Fin 256) (q : Fin 47) : b2 V c t (ix2 κ q) = wl V c (ix2 κ q) := by
  obtain ⟨-, -, -, -, e0, e1, -⟩ := idx_facts t
  show V c main_arg13 (((cfg2.win 2).blk t).view.emb (ix2 κ q)) = V c main_arg13 (ix2 κ q)
  refine congrArg (V c main_arg13) (funext fun ax => Fin.ext ?_)
  match ax with
  | ⟨0, _⟩ => show win2_2.index t (0 : Fin 2) * 256 + 1 * κ.val = κ.val; omega
  | ⟨1, _⟩ => show win2_2.index t (1 : Fin 2) * 47 + 1 * q.val = q.val; omega

theorem b3_apply (c : Dev nD) (t : Fin cfg2.N) (κ : Fin 256) (q : Fin 47) : b3 V c t (ix2 κ q) = wr V c (ix2 κ q) := by
  obtain ⟨-, -, -, -, -, -, e0, e1, -⟩ := idx_facts t
  show V c main_arg14 (((cfg2.win 3).blk t).view.emb (ix2 κ q)) = V c main_arg14 (ix2 κ q)
  refine congrArg (V c main_arg14) (funext fun ax => Fin.ext ?_)
  match ax with
  | ⟨0, _⟩ => show win2_3.index t (0 : Fin 2) * 256 + 1 * κ.val = κ.val; omega
  | ⟨1, _⟩ => show win2_3.index t (1 : Fin 2) * 47 + 1 * q.val = q.val; omega

theorem b4_apply (c : Dev nD) (t : Fin cfg2.N) (u : Fin 1) (q : Fin 47) : b4 V c t (ix2 u q) = brow V c (ix2 u q) := by
  obtain ⟨-, -, -, -, -, -, -, -, e0, e1, -⟩ := idx_facts t
  show V c main_v64 (((cfg2.win 4).blk t).view.emb (ix2 u q)) = V c main_v64 (ix2 u q)
  refine congrArg (V c main_v64) (funext fun ax => Fin.ext ?_)
  match ax with
  | ⟨0, _⟩ => show win2_4.index t (0 : Fin 2) * 1 + 1 * u.val = u.val; omega
  | ⟨1, _⟩ => show win2_4.index t (1 : Fin 2) * 47 + 1 * q.val = q.val; omega

/-- WHAT THE POINT WRITES BACK is the one block of `out`. -/
theorem flushed_eq (c : Dev nD) (t : Fin cfg2.N) :
    (dat2 V c).flushed 5 t = ((cfg2.win 5).blk t).view.read (Elt Ideal) (out V c) := by
  show (cfg2.win 5).cut (grid2.coords t) ((dat2 V c).after 5 t) = _
  rw [after2_5]
  unfold out2_5
  rw [View.canon_unit_zero hz]
  simp only [View.ld_unit_zero (S := S4096x256) hz, View.ld_unit_zero (S := S256x47) hz, View.ld_unit_zero (S := S1x47) hz]
  funext j
  obtain ⟨p, q, rfl⟩ : ∃ (p : Fin 4096) (q : Fin 47), j = ix2 p q := ⟨j 0, j 1, eq_ix2 j⟩
  obtain ⟨-, -, -, -, -, -, -, -, -, -, e0, e1⟩ := idx_facts t
  show k2_pay1 (F := Ideal) (b0 V c t) (b1 V c t) (b2 V c t) (b3 V c t) (b4 V c t) (ix2 p q)
    = out V c (((cfg2.win 5).blk t).view.emb (ix2 p q))
  refine (pay_apply (b0 V c t) (b1 V c t) (b2 V c t) (b3 V c t) (b4 V c t) p q).trans ?_
  have hemb : ((cfg2.win 5).blk t).view.emb (ix2 p q) = ix2 p q := by
    funext ax; apply Fin.ext
    match ax with
    | ⟨0, _⟩ => show win2_5.index t (0 : Fin 2) * 4096 + 1 * p.val = p.val; omega
    | ⟨1, _⟩ => show win2_5.index t (1 : Fin 2) * 47 + 1 * q.val = q.val; omega
  rw [hemb]
  show _ = Cert.Sage.lsm (Cert.Sage.lin (mean V c) (xdst V c) (wl V c) (wr V c) (fun q => brow V c (ix2 (0 : Fin 1) q)) p) q
  refine congrArg (fun z => Cert.Sage.lsm z q) ?_
  exact Cert.Sage.lin_row_of_blocks (mean V c) (xdst V c) (wl V c) (wr V c) (fun q => brow V c (ix2 (0 : Fin 1) q))
    (b0 V c t) (b1 V c t) (b2 V c t) (b3 V c t) (fun q => b4 V c t (ix2 (0 : Fin 1) q)) p p
    (fun κ => b0_apply V c t p κ) (fun κ => b1_apply V c t p κ)
    (fun κ q => b2_apply V c t κ q) (fun κ q => b3_apply V c t κ q) (fun q => b4_apply V c t 0 q)

/-- An index of the array is in the point's block iff each coordinate is in the block's range on its axis. -/
theorem mem_blk (t : Fin cfg2.N) (i : S4096x47.Idx) :
    i ∈ ((cfg2.win 5).blk t).view.set ↔ ∀ a : Fin 2, win2_5.index t a * S4096x47.size a ≤ (i a).val ∧ (i a).val < win2_5.index t a * S4096x47.size a + S4096x47.size a := by
  show i ∈ ((View.whole main_v65).slice (win2_5.rect t)).set ↔ _
  rw [View.set_slice_whole, Rect.mem_set_unit]
  exact Iff.rfl

/-- Every index of the array lies in the one point's block. -/
theorem cover (i : S4096x47.Idx) : ∃ t : Fin cfg2.N, (cfg2.win 5).flush t = true ∧ i ∈ ((cfg2.win 5).blk t).view.set := by
  have hi0 : (i 0).val < 4096 := (i 0).isLt
  have hi1 : (i 1).val < 47 := (i 1).isLt
  refine ⟨⟨0, by decide⟩, flush2_5 _, ?_⟩
  rw [mem_blk]
  obtain ⟨-, -, -, -, -, -, -, -, -, -, e0, e1⟩ := idx_facts ⟨0, by decide⟩
  intro a
  match a with
  | ⟨0, _⟩ =>
    show win2_5.index _ (0 : Fin 2) * 4096 ≤ (i 0).val ∧ (i 0).val < win2_5.index _ (0 : Fin 2) * 4096 + 4096
    rw [e0]; omega
  | ⟨1, _⟩ =>
    show win2_5.index _ (1 : Fin 2) * 47 ≤ (i 1).val ∧ (i 1).val < win2_5.index _ (1 : Fin 2) * 47 + 47
    rw [e1]; omega

/-- THE ARRAY after the region: `out` of the arrays it was entered with. -/
theorem final (c : Dev nD) : (dat2 V c).arrAt 5 cfg2.N = out V c :=
  (dat2 V c).arrAt_eq_of_cover 5 (out V c) (fun t _ => flushed_eq V c t) (cover)

/-- The same, with the entry arrays named: when the region is entered with means M, targets' rows X, weights WL, WR and
    bias row B, the output array ends at `lsmLin` of them. -/
theorem final_of (c : Dev nD) (M X : S4096x256.Idx → EReal) (WL WR : S256x47.Idx → EReal) (B : Fin 47 → EReal)
    (hM : V c main_v62 = M) (hX : V c main_v63 = X) (hWL : V c main_arg13 = WL) (hWR : V c main_arg14 = WR)
    (hB : ∀ q : Fin 47, V c main_v64 (ix2 (0 : Fin 1) q) = B q) :
    (dat2 V c).arrAt 5 cfg2.N = Cert.Sage.lsmLin M X WL WR B := by
  have hB' : (fun q : Fin 47 => brow V c (ix2 (0 : Fin 1) q)) = B := funext hB
  subst hM hX hWL hWR hB'
  exact final V c

end Cert.KernelIdeal.Layer2
-- ==== Proof.StageHost.lean ====
/-
  The host's operations of one dense stage, read at an entry.

  The reference forms the two matrix products as whole-array contractions, adds them and the bias (a [b] row made a
  [1, b] array, then repeated down the rows): `lin` at (p, q). A hidden layer takes the maximum with a zero splat;
  the last layer takes each row's log-softmax with the same steps as the kernel, its row maximum and row sum being
  one-axis reductions whose sum starts from the constant 0.
-/
import proofs.«128104_j8186207666616_1_alg».proof.Proof.Spec

noncomputable section

namespace Cert.Sage

open Idealize.ShloMosaic Idealize.ShloMosaic.ValueIdx

variable {a k b : ℕ}

/-! ## Repeats of a scalar, a row and a column -/

/-- A scalar repeated to any shape reads the scalar. -/
theorem bcast_scalar_apply {α : Type} {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun ax => ax.elim0

/-- A [b] row made [1, b] reads, at (u, q), the row at q. -/
theorem bcast_b_1b_apply {α : Type} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A [1, b] row repeated down the rows of [a, b] reads, at (p, q), the row at q. -/
theorem bcast_1b_ab_apply {α : Type} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- An [a] column made [a, 1] reads, at (p, u), the column at p. -/
theorem bcast_a_a1_apply {α : Type} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An [a, 1] column repeated along the rows of [a, b] reads, at (p, q), the column at p. -/
theorem bcast_a1_ab_apply {α : Type} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-! ## The stage before its activation -/

/-- The reference's pre-activation array. -/
def linHost (d : DotDims ⟨2, ![a, k]⟩ ⟨2, ![k, b]⟩ ⟨2, ![a, b]⟩)
    (mean xdst : FVec Ideal ⟨2, ![a, k]⟩ .f32) (wl wr : FVec Ideal ⟨2, ![k, b]⟩ .f32) (bias : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) : FVec Ideal ⟨2, ![a, b]⟩ .f32 :=
  addf (addf (Host.dotGeneral d none mean wl) (Host.dotGeneral d none xdst wr))
    (broadcastInDim ⟨2, ![a, b]⟩ ![0, 1] h2 (broadcastInDim ⟨2, ![1, b]⟩ ![1] h1 bias))

theorem linHost_apply (d : DotDims ⟨2, ![a, k]⟩ ⟨2, ![k, b]⟩ ⟨2, ![a, b]⟩) (hd : PlainDot.Plain d) (hr : d.contr.rank = 1)
    (hs : d.contr.size ⟨0, by omega⟩ = k)
    (mean xdst : FVec Ideal ⟨2, ![a, k]⟩ .f32) (wl wr : FVec Ideal ⟨2, ![k, b]⟩ .f32) (bias : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    linHost d mean xdst wl wr bias h1 h2 (ix2 p q) = lin mean xdst wl wr (fun q => bias (ix1 q)) p q := by
  unfold linHost lin
  rw [addf_apply, addf_apply, PlainDot.dotGeneral_apply hd hr hs, PlainDot.dotGeneral_apply hd hr hs,
    bcast_1b_ab_apply _ h2 p q, bcast_b_1b_apply bias h1 0 q]

/-- A hidden layer's array at an entry. -/
theorem relu_host_apply (z : FVec Ideal ⟨2, ![a, b]⟩ .f32) (h0 : (⟨0, ![]⟩ : Shape).BroadcastsInDim ⟨2, ![a, b]⟩ ![])
    (p : Fin a) (q : Fin b) :
    maximumf z (broadcastInDim ⟨2, ![a, b]⟩ ![] h0 (constant (F := Ideal) ⟨0, ![]⟩ .f32 0x00000000#32)) (ix2 p q)
      = max (z (ix2 p q)) zeroW := by
  rw [maximumf_apply, bcast_scalar_apply]
  rfl

/-! ## The last layer's log-softmax -/

/-- The reference's log-softmax of an array, as its operations run. -/
def lsmHost (z : FVec Ideal ⟨2, ![a, b]⟩ .f32)
    (hto : (⟨2, ![a, b]⟩ : Shape).ReducesTo [(1 : Fin 2)] ⟨1, ![a]⟩) (hS : 0 < (⟨0, ![]⟩ : Shape).numel)
    (h0 : (⟨0, ![]⟩ : Shape).BroadcastsInDim ⟨1, ![a]⟩ ![]) (hA : (⟨1, ![a]⟩ : Shape).BroadcastsInDim ⟨2, ![a, 1]⟩ ![0])
    (hB : (⟨2, ![a, 1]⟩ : Shape).BroadcastsInDim ⟨2, ![a, b]⟩ ![0, 1]) : FVec Ideal ⟨2, ![a, b]⟩ .f32 :=
  have v0 : FVec Ideal ⟨1, ![a]⟩ .f32 :=
    Host.reduce FloatOps.maximumf z (constant (F := Ideal) ⟨0, ![]⟩ .f32 0xFF800000#32) hto hS
  have v2 : FVec Ideal ⟨1, ![a]⟩ .f32 :=
    maximumf (broadcastInDim ⟨1, ![a]⟩ ![] h0 (constant (F := Ideal) ⟨0, ![]⟩ .f32 0xFF800000#32)) v0
  have v5 : FVec Ideal ⟨2, ![a, b]⟩ .f32 :=
    subf z (broadcastInDim ⟨2, ![a, b]⟩ ![0, 1] hB (broadcastInDim ⟨2, ![a, 1]⟩ ![0] hA v2))
  have v7 : FVec Ideal ⟨1, ![a]⟩ .f32 :=
    Host.reduceAdd (Host.exp v5) (constant (F := Ideal) ⟨0, ![]⟩ .f32 0x00000000#32) hto hS
  subf v5 (broadcastInDim ⟨2, ![a, b]⟩ ![0, 1] hB (Host.log (broadcastInDim ⟨2, ![a, 1]⟩ ![0] hA v7)))

theorem lsmHost_apply (z : FVec Ideal ⟨2, ![a, b]⟩ .f32)
    (hto : (⟨2, ![a, b]⟩ : Shape).ReducesTo [(1 : Fin 2)] ⟨1, ![a]⟩) (hred : (⟨2, ![a, b]⟩ : Shape).Reduces [(1 : Fin 2)] ⟨1, ![a]⟩)
    (hS : 0 < (⟨0, ![]⟩ : Shape).numel)
    (h0 : (⟨0, ![]⟩ : Shape).BroadcastsInDim ⟨1, ![a]⟩ ![]) (hA : (⟨1, ![a]⟩ : Shape).BroadcastsInDim ⟨2, ![a, 1]⟩ ![0])
    (hB : (⟨2, ![a, 1]⟩ : Shape).BroadcastsInDim ⟨2, ![a, b]⟩ ![0, 1]) (p : Fin a) (q : Fin b) :
    lsmHost z hto hS h0 hA hB (ix2 p q) = lsm (fun q' => z (ix2 p q')) q := by
  have hlift : ∀ (p : Fin a) (κ : Fin b), hred.lift (ix1 p) κ = ix2 p κ := fun p κ => by
    funext ax; match ax with | ⟨0, _⟩ => rfl | ⟨1, _⟩ => rfl
  have hmax : ∀ p : Fin a,
      Host.reduce FloatOps.maximumf z (constant (F := Ideal) ⟨0, ![]⟩ .f32 0xFF800000#32) hto hS (ix1 p)
      = (Finset.univ : Finset (Fin b)).fold max negInf (fun q' => z (ix2 p q')) := fun p => by
    refine (Host.reduce_eq_fold_single (FloatOps.maximumf (F := Ideal) (φ := .f32)) z _ hto hred hS (ix1 p)).trans ?_
    exact congrArg (fun f => (Finset.univ : Finset (Fin b)).fold max negInf f) (funext fun κ => congrArg z (hlift p κ))
  have hshift : ∀ (p : Fin a) (q : Fin b),
      subf z (broadcastInDim ⟨2, ![a, b]⟩ ![0, 1] hB (broadcastInDim ⟨2, ![a, 1]⟩ ![0] hA
        (maximumf (broadcastInDim ⟨1, ![a]⟩ ![] h0 (constant (F := Ideal) ⟨0, ![]⟩ .f32 0xFF800000#32))
          (Host.reduce FloatOps.maximumf z (constant (F := Ideal) ⟨0, ![]⟩ .f32 0xFF800000#32) hto hS)))) (ix2 p q)
      = z (ix2 p q) - rowMax (fun q' => z (ix2 p q')) := fun p q => by
    rw [subf_apply, bcast_a1_ab_apply _ hB p q, bcast_a_a1_apply _ hA p 0, maximumf_apply, hmax p, bcast_scalar_apply]
    rfl
  unfold lsmHost lsm
  show subf _ _ (ix2 p q) = _
  rw [subf_apply, hshift p q, bcast_a1_ab_apply _ hB p q]
  show _ - Ideal.log (broadcastInDim (s := ⟨1, ![a]⟩) ⟨2, ![a, 1]⟩ ![0] hA _ (ix2 p (0 : Fin 1))) = _
  rw [bcast_a_a1_apply _ hA p 0]
  refine congrArg (fun s => (z (ix2 p q) - rowMax (fun q' => z (ix2 p q'))) - Ideal.log s) ?_
  show Ideal.hostReduceAdd hto _ _ (ix1 p) = _
  refine (Ideal.hostReduceAdd_single hto hred _ _ (ix1 p)).trans ?_
  show zeroW + _ = _
  rw [show zeroW = 0 from Ideal.ofBits_zero_f32, zero_add]
  refine Finset.sum_congr rfl fun κ _ => ?_
  rw [hlift p κ]
  show Ideal.exp (subf z _ (ix2 p κ)) = _
  rw [hshift p κ]

end Cert.Sage
-- ==== Proof.RefLayers.lean ====
/-
  The reference's three layers, each as the stage function of what enters it.

  Layer by layer the reference forms the neighbour means, takes the first rows of its input as the targets' own
  features, and applies the dense stage: two contractions, their sum, the bias repeated down the rows, then max (·, 0)
  — or, in the last layer, each row's log-softmax. Read at an entry (the host operations of one stage, StageHost),
  the first two layers are `reluLin` and the last is `lsmLin` of the means, the targets' rows, the two weight
  matrices and the bias.
-/
import proofs.«128104_j8186207666616_1_alg».proof.Proof.RefRead
import proofs.«128104_j8186207666616_1_alg».proof.Proof.StageHost

noncomputable section

namespace Cert.ReferenceIdeal.Layers

open Cert.ReferenceIdeal Cert.ReferenceIdeal.Gen Cert.ReferenceIdeal.ReadP
open Idealize.ShloMosaic Idealize.ShloMosaic.ValueIdx

theorem plain0 : Cert.PlainDot.Plain dot_S200000x100_S100x256_S200000x256_1_0_0_1_n_n := ⟨rfl, rfl, rfl, rfl, rfl, rfl⟩
theorem plain1 : Cert.PlainDot.Plain dot_S20000x256_S256x256_S20000x256_1_0_0_1_n_n := ⟨rfl, rfl, rfl, rfl, rfl, rfl⟩
theorem plain2 : Cert.PlainDot.Plain dot_S4096x256_S256x47_S4096x47_1_0_0_1_n_n := ⟨rfl, rfl, rfl, rfl, rfl, rfl⟩

variable (x0 : (⟨S1500000x100, .f32⟩ : BufTy).Contents (Elt Ideal)) (x1 x2 : (⟨S2000000, .i32⟩ : BufTy).Contents (Elt Ideal))
  (x3 x4 : (⟨S200000, .i32⟩ : BufTy).Contents (Elt Ideal)) (x5 x6 : (⟨S20480, .i32⟩ : BufTy).Contents (Elt Ideal))
  (x7 x8 : (⟨S100x256, .f32⟩ : BufTy).Contents (Elt Ideal)) (x9 : (⟨S256, .f32⟩ : BufTy).Contents (Elt Ideal))
  (x10 x11 : (⟨S256x256, .f32⟩ : BufTy).Contents (Elt Ideal)) (x12 : (⟨S256, .f32⟩ : BufTy).Contents (Elt Ideal))
  (x13 x14 : (⟨S256x47, .f32⟩ : BufTy).Contents (Elt Ideal)) (x15 : (⟨S47, .f32⟩ : BufTy).Contents (Elt Ideal))

/-- Layer 0's output: the stage of the layer-0 means and the first 200000 rows of the features, cut off at zero. -/
theorem layer0 :
    val_main_v26 (F := Ideal) x0 x1 x2 x7 x8 x9
      = Cert.Sage.reluLin (val_main_v19 (F := Ideal) x0 x1 x2) (val_main_v0 (F := Ideal) x0) x7 x8 (fun q => x9 (ix1 q)) := by
  funext j
  obtain ⟨p, q, rfl⟩ : ∃ (p : Fin 200000) (q : Fin 256), j = ix2 p q := ⟨j 0, j 1, eq_ix2 j⟩
  rw [Cert.Sage.reluLin_apply]
  show maximumf (Cert.Sage.linHost dot_S200000x100_S100x256_S200000x256_1_0_0_1_n_n (val_main_v19 (F := Ideal) x0 x1 x2)
      (val_main_v0 (F := Ideal) x0) x7 x8 x9 bcast_S256_S1x256_1 bcast_S1x256_S200000x256_0_1)
    (broadcastInDim S200000x256 ![] bcast_S_S200000x256 (constant (F := Ideal) S_ .f32 0x00000000#32)) (ix2 p q) = _
  rw [Cert.Sage.relu_host_apply, Cert.Sage.linHost_apply _ plain0 rfl rfl]

/-- Layer 1's output: the stage of the layer-1 means and the first 20000 rows of layer 0's output, cut off at zero. -/
theorem layer1 :
    val_main_v53 (F := Ideal) x0 x1 x2 x3 x4 x7 x8 x9 x10 x11 x12
      = Cert.Sage.reluLin (val_main_v46 (F := Ideal) x0 x1 x2 x3 x4 x7 x8 x9) (val_main_v27 (F := Ideal) x0 x1 x2 x7 x8 x9)
          x10 x11 (fun q => x12 (ix1 q)) := by
  funext j
  obtain ⟨p, q, rfl⟩ : ∃ (p : Fin 20000) (q : Fin 256), j = ix2 p q := ⟨j 0, j 1, eq_ix2 j⟩
  rw [Cert.Sage.reluLin_apply]
  show maximumf (Cert.Sage.linHost dot_S20000x256_S256x256_S20000x256_1_0_0_1_n_n (val_main_v46 (F := Ideal) x0 x1 x2 x3 x4 x7 x8 x9)
      (val_main_v27 (F := Ideal) x0 x1 x2 x7 x8 x9) x10 x11 x12 bcast_S256_S1x256_1 bcast_S1x256_S20000x256_0_1)
    (broadcastInDim S20000x256 ![] bcast_S_S20000x256 (constant (F := Ideal) S_ .f32 0x00000000#32)) (ix2 p q) = _
  rw [Cert.Sage.relu_host_apply, Cert.Sage.linHost_apply _ plain1 rfl rfl]

/-- The reference's result: each row's log-softmax of the stage of the layer-2 means and the first 4096 rows of
    layer 1's output. -/
theorem layer2 :
    val_main_v80 (F := Ideal) x0 x1 x2 x3 x4 x5 x6 x7 x8 x9 x10 x11 x12 x13 x14 x15
      = Cert.Sage.lsmLin (val_main_v73 (F := Ideal) x0 x1 x2 x3 x4 x5 x6 x7 x8 x9 x10 x11 x12)
          (val_main_v54 (F := Ideal) x0 x1 x2 x3 x4 x7 x8 x9 x10 x11 x12) x13 x14 (fun q => x15 (ix1 q)) := by
  funext j
  obtain ⟨p, q, rfl⟩ : ∃ (p : Fin 4096) (q : Fin 47), j = ix2 p q := ⟨j 0, j 1, eq_ix2 j⟩
  rw [Cert.Sage.lsmLin_apply]
  show Cert.Sage.lsmHost (Cert.Sage.linHost dot_S4096x256_S256x47_S4096x47_1_0_0_1_n_n
      (val_main_v73 (F := Ideal) x0 x1 x2 x3 x4 x5 x6 x7 x8 x9 x10 x11 x12) (val_main_v54 (F := Ideal) x0 x1 x2 x3 x4 x7 x8 x9 x10 x11 x12)
      x13 x14 x15 bcast_S47_S1x47_1 bcast_S1x47_S4096x47_0_1)
    reducesTo_S4096x47_S4096_d1 h_S_ bcast_S_S4096 bcast_S4096_S4096x1_0 bcast_S4096x1_S4096x47_0_1 (ix2 p q) = _
  rw [Cert.Sage.lsmHost_apply _ _ (by decide)]
  exact congrArg (fun z => Cert.Sage.lsm z q) (funext fun q' => Cert.Sage.linHost_apply _ plain2 rfl rfl _ _ _ _ _ _ _ p q')

end Cert.ReferenceIdeal.Layers
-- ==== Proof.KChain.lean ====
/-
  The kernel's program, end to end, against the reference's stages.

  @main alternates host stretches and TensorCore regions. Each host stretch applies to its inputs the very operations
  the reference applies (the neighbour gather and the two scatter-adds that make a layer's means, the first rows as
  the targets' features, the bias made a row), so what it leaves in each buffer is the reference's stage of the same
  name, once its inputs are known to be the reference's: this part is the same for every reading of the floats, and is
  stated so. Each region leaves the stage function of what it is entered with (Region0, Region1, Region2), and the
  reference's layer is that same function (RefLayers): this part is about the extended reals. Chaining the three
  layers, the kernel's result array is the reference's result as a function of the launch arguments.
-/
import proofs.«128104_j8186207666616_1_alg».proof.Proof.KRun
import proofs.«128104_j8186207666616_1_alg».proof.Proof.Region0
import proofs.«128104_j8186207666616_1_alg».proof.Proof.Region1
import proofs.«128104_j8186207666616_1_alg».proof.Proof.Region2
import proofs.«128104_j8186207666616_1_alg».proof.Proof.RefLayers
import Idealize.ShloMosaic.Lib.ValueLayout
import Idealize.ShloMosaic.Lib.StableHlo.Run

noncomputable section

namespace Cert.KernelIdeal.Chain

open Cert.KernelIdeal Cert.KernelIdeal.Gen Idealize.ShloMosaic Idealize.ShloMosaic.TcCoe Idealize.ShloMosaic.ValueIdx
open Idealize.SL.Sem Idealize.ShloMosaic.StableHlo

/-! ## The host stretches, for any reading of the floats -/

section Host

variable {F : FTy → Type} [FloatOps F] (m : (ℓ : Loc nD τ sig) → Buf (Elt F) ℓ) (ρ : Dev nD → PrngReg)

/-! ### Before region 0 -/

theorem mean0 (c : Dev nD) : V1 m ρ c main_v18 = Cert.ReferenceIdeal.ReadP.val_main_v19 (F := F) (m ((c.tc : Thread nD τ).loc main_arg0)) (m ((c.tc : Thread nD τ).loc main_arg1)) (m ((c.tc : Thread nD τ).loc main_arg2)) := by
  show StableHlo.after hostOps0 (W0 m ρ c) (Proc.devRef .tc main_v18) = _
  after_results_simp
  rfl

theorem xdst0 (c : Dev nD) : V1 m ρ c main_v19 = Cert.ReferenceIdeal.ReadP.val_main_v0 (F := F) (m ((c.tc : Thread nD τ).loc main_arg0)) := by
  show StableHlo.after hostOps0 (W0 m ρ c) (Proc.devRef .tc main_v19) = _
  after_results
  rfl

theorem wl0 (c : Dev nD) : V1 m ρ c main_arg7 = (m ((c.tc : Thread nD τ).loc main_arg7)) := by
  show StableHlo.after hostOps0 (W0 m ρ c) (Proc.devRef .tc main_arg7) = _
  after_results

theorem wr0 (c : Dev nD) : V1 m ρ c main_arg8 = (m ((c.tc : Thread nD τ).loc main_arg8)) := by
  show StableHlo.after hostOps0 (W0 m ρ c) (Proc.devRef .tc main_arg8) = _
  after_results

theorem brow0 (c : Dev nD) : V1 m ρ c main_v20 = shapeCast S1x256 (m ((c.tc : Thread nD τ).loc main_arg9)) shapeCasts_S256_S1x256 := by
  show StableHlo.after hostOps0 (W0 m ρ c) (Proc.devRef .tc main_v20) = _
  after_results
  rfl

/-- An argument no earlier item writes is, at region 0's exit, as launched. -/
theorem W2_arg3 (c : Dev nD) : W2 m ρ c (Proc.devRef .tc main_arg3) = (m ((c.tc : Thread nD τ).loc main_arg3)) :=
  (W2_of_ne m ρ c main_arg3 (by decide)).trans (by
    show StableHlo.after hostOps0 (W0 m ρ c) (Proc.devRef .tc main_arg3) = _
    after_results)
theorem W2_arg4 (c : Dev nD) : W2 m ρ c (Proc.devRef .tc main_arg4) = (m ((c.tc : Thread nD τ).loc main_arg4)) :=
  (W2_of_ne m ρ c main_arg4 (by decide)).trans (by
    show StableHlo.after hostOps0 (W0 m ρ c) (Proc.devRef .tc main_arg4) = _
    after_results)
theorem W2_arg5 (c : Dev nD) : W2 m ρ c (Proc.devRef .tc main_arg5) = (m ((c.tc : Thread nD τ).loc main_arg5)) :=
  (W2_of_ne m ρ c main_arg5 (by decide)).trans (by
    show StableHlo.after hostOps0 (W0 m ρ c) (Proc.devRef .tc main_arg5) = _
    after_results)
theorem W2_arg6 (c : Dev nD) : W2 m ρ c (Proc.devRef .tc main_arg6) = (m ((c.tc : Thread nD τ).loc main_arg6)) :=
  (W2_of_ne m ρ c main_arg6 (by decide)).trans (by
    show StableHlo.after hostOps0 (W0 m ρ c) (Proc.devRef .tc main_arg6) = _
    after_results)
theorem W2_arg10 (c : Dev nD) : W2 m ρ c (Proc.devRef .tc main_arg10) = (m ((c.tc : Thread nD τ).loc main_arg10)) :=
  (W2_of_ne m ρ c main_arg10 (by decide)).trans (by
    show StableHlo.after hostOps0 (W0 m ρ c) (Proc.devRef .tc main_arg10) = _
    after_results)
theorem W2_arg11 (c : Dev nD) : W2 m ρ c (Proc.devRef .tc main_arg11) = (m ((c.tc : Thread nD τ).loc main_arg11)) :=
  (W2_of_ne m ρ c main_arg11 (by decide)).trans (by
    show StableHlo.after hostOps0 (W0 m ρ c) (Proc.devRef .tc main_arg11) = _
    after_results)
theorem W2_arg12 (c : Dev nD) : W2 m ρ c (Proc.devRef .tc main_arg12) = (m ((c.tc : Thread nD τ).loc main_arg12)) :=
  (W2_of_ne m ρ c main_arg12 (by decide)).trans (by
    show StableHlo.after hostOps0 (W0 m ρ c) (Proc.devRef .tc main_arg12) = _
    after_results)
theorem W2_arg13 (c : Dev nD) : W2 m ρ c (Proc.devRef .tc main_arg13) = (m ((c.tc : Thread nD τ).loc main_arg13)) :=
  (W2_of_ne m ρ c main_arg13 (by decide)).trans (by
    show StableHlo.after hostOps0 (W0 m ρ c) (Proc.devRef .tc main_arg13) = _
    after_results)
theorem W2_arg14 (c : Dev nD) : W2 m ρ c (Proc.devRef .tc main_arg14) = (m ((c.tc : Thread nD τ).loc main_arg14)) :=
  (W2_of_ne m ρ c main_arg14 (by decide)).trans (by
    show StableHlo.after hostOps0 (W0 m ρ c) (Proc.devRef .tc main_arg14) = _
    after_results)
theorem W2_arg15 (c : Dev nD) : W2 m ρ c (Proc.devRef .tc main_arg15) = (m ((c.tc : Thread nD τ).loc main_arg15)) :=
  (W2_of_ne m ρ c main_arg15 (by decide)).trans (by
    show StableHlo.after hostOps0 (W0 m ρ c) (Proc.devRef .tc main_arg15) = _
    after_results)

/-! ### Between regions 0 and 1: from any layer-0 output that is the reference's -/

theorem mean1 (c : Dev nD) (x0 : (⟨Cert.ReferenceIdeal.S1500000x100, .f32⟩ : BufTy).Contents (Elt F)) (x1 : (⟨Cert.ReferenceIdeal.S2000000, .i32⟩ : BufTy).Contents (Elt F)) (x2 : (⟨Cert.ReferenceIdeal.S2000000, .i32⟩ : BufTy).Contents (Elt F)) (x3 : (⟨Cert.ReferenceIdeal.S200000, .i32⟩ : BufTy).Contents (Elt F)) (x4 : (⟨Cert.ReferenceIdeal.S200000, .i32⟩ : BufTy).Contents (Elt F)) (x7 : (⟨Cert.ReferenceIdeal.S100x256, .f32⟩ : BufTy).Contents (Elt F)) (x8 : (⟨Cert.ReferenceIdeal.S100x256, .f32⟩ : BufTy).Contents (Elt F)) (x9 : (⟨Cert.ReferenceIdeal.S256, .f32⟩ : BufTy).Contents (Elt F))
    (hh : W2 m ρ c (Proc.devRef .tc main_v21) = Cert.ReferenceIdeal.ReadP.val_main_v26 (F := F) x0 x1 x2 x7 x8 x9)
    (h3 : W2 m ρ c (Proc.devRef .tc main_arg3) = x3) (h4 : W2 m ρ c (Proc.devRef .tc main_arg4) = x4) :
    V3 m ρ c main_v40 = Cert.ReferenceIdeal.ReadP.val_main_v46 (F := F) x0 x1 x2 x3 x4 x7 x8 x9 := by
  show StableHlo.after hostOps1 (W2 m ρ c) (Proc.devRef .tc main_v40) = _
  after_results_simp
  rw [hh, h3, h4]
  rfl

theorem xdst1 (c : Dev nD) (x0 : (⟨Cert.ReferenceIdeal.S1500000x100, .f32⟩ : BufTy).Contents (Elt F)) (x1 : (⟨Cert.ReferenceIdeal.S2000000, .i32⟩ : BufTy).Contents (Elt F)) (x2 : (⟨Cert.ReferenceIdeal.S2000000, .i32⟩ : BufTy).Contents (Elt F)) (x7 : (⟨Cert.ReferenceIdeal.S100x256, .f32⟩ : BufTy).Contents (Elt F)) (x8 : (⟨Cert.ReferenceIdeal.S100x256, .f32⟩ : BufTy).Contents (Elt F)) (x9 : (⟨Cert.ReferenceIdeal.S256, .f32⟩ : BufTy).Contents (Elt F))
    (hh : W2 m ρ c (Proc.devRef .tc main_v21) = Cert.ReferenceIdeal.ReadP.val_main_v26 (F := F) x0 x1 x2 x7 x8 x9) :
    V3 m ρ c main_v41 = Cert.ReferenceIdeal.ReadP.val_main_v27 (F := F) x0 x1 x2 x7 x8 x9 := by
  show StableHlo.after hostOps1 (W2 m ρ c) (Proc.devRef .tc main_v41) = _
  after_results
  rw [hh]
  rfl

theorem wl1 (c : Dev nD) : V3 m ρ c main_arg10 = (m ((c.tc : Thread nD τ).loc main_arg10)) := by
  show StableHlo.after hostOps1 (W2 m ρ c) (Proc.devRef .tc main_arg10) = _
  after_results
  exact W2_arg10 m ρ c

theorem wr1 (c : Dev nD) : V3 m ρ c main_arg11 = (m ((c.tc : Thread nD τ).loc main_arg11)) := by
  show StableHlo.after hostOps1 (W2 m ρ c) (Proc.devRef .tc main_arg11) = _
  after_results
  exact W2_arg11 m ρ c

theorem brow1 (c : Dev nD) : V3 m ρ c main_v42 = shapeCast S1x256 (m ((c.tc : Thread nD τ).loc main_arg12)) shapeCasts_S256_S1x256 := by
  show StableHlo.after hostOps1 (W2 m ρ c) (Proc.devRef .tc main_v42) = _
  after_results
  rw [W2_arg12 m ρ c]
  rfl

/-- An argument no earlier item writes is, at region 1's exit, as launched. -/
theorem W4_arg5 (c : Dev nD) : W4 m ρ c (Proc.devRef .tc main_arg5) = (m ((c.tc : Thread nD τ).loc main_arg5)) :=
  (W4_of_ne m ρ c main_arg5 (by decide)).trans (by
    show StableHlo.after hostOps1 (W2 m ρ c) (Proc.devRef .tc main_arg5) = _
    after_results
    exact W2_arg5 m ρ c)
theorem W4_arg6 (c : Dev nD) : W4 m ρ c (Proc.devRef .tc main_arg6) = (m ((c.tc : Thread nD τ).loc main_arg6)) :=
  (W4_of_ne m ρ c main_arg6 (by decide)).trans (by
    show StableHlo.after hostOps1 (W2 m ρ c) (Proc.devRef .tc main_arg6) = _
    after_results
    exact W2_arg6 m ρ c)
theorem W4_arg13 (c : Dev nD) : W4 m ρ c (Proc.devRef .tc main_arg13) = (m ((c.tc : Thread nD τ).loc main_arg13)) :=
  (W4_of_ne m ρ c main_arg13 (by decide)).trans (by
    show StableHlo.after hostOps1 (W2 m ρ c) (Proc.devRef .tc main_arg13) = _
    after_results
    exact W2_arg13 m ρ c)
theorem W4_arg14 (c : Dev nD) : W4 m ρ c (Proc.devRef .tc main_arg14) = (m ((c.tc : Thread nD τ).loc main_arg14)) :=
  (W4_of_ne m ρ c main_arg14 (by decide)).trans (by
    show StableHlo.after hostOps1 (W2 m ρ c) (Proc.devRef .tc main_arg14) = _
    after_results
    exact W2_arg14 m ρ c)
theorem W4_arg15 (c : Dev nD) : W4 m ρ c (Proc.devRef .tc main_arg15) = (m ((c.tc : Thread nD τ).loc main_arg15)) :=
  (W4_of_ne m ρ c main_arg15 (by decide)).trans (by
    show StableHlo.after hostOps1 (W2 m ρ c) (Proc.devRef .tc main_arg15) = _
    after_results
    exact W2_arg15 m ρ c)

/-! ### Between regions 1 and 2: from any layer-1 output that is the reference's -/

theorem mean2 (c : Dev nD) (x0 : (⟨Cert.ReferenceIdeal.S1500000x100, .f32⟩ : BufTy).Contents (Elt F)) (x1 : (⟨Cert.ReferenceIdeal.S2000000, .i32⟩ : BufTy).Contents (Elt F)) (x2 : (⟨Cert.ReferenceIdeal.S2000000, .i32⟩ : BufTy).Contents (Elt F)) (x3 : (⟨Cert.ReferenceIdeal.S200000, .i32⟩ : BufTy).Contents (Elt F)) (x4 : (⟨Cert.ReferenceIdeal.S200000, .i32⟩ : BufTy).Contents (Elt F)) (x5 : (⟨Cert.ReferenceIdeal.S20480, .i32⟩ : BufTy).Contents (Elt F)) (x6 : (⟨Cert.ReferenceIdeal.S20480, .i32⟩ : BufTy).Contents (Elt F)) (x7 : (⟨Cert.ReferenceIdeal.S100x256, .f32⟩ : BufTy).Contents (Elt F)) (x8 : (⟨Cert.ReferenceIdeal.S100x256, .f32⟩ : BufTy).Contents (Elt F)) (x9 : (⟨Cert.ReferenceIdeal.S256, .f32⟩ : BufTy).Contents (Elt F)) (x10 : (⟨Cert.ReferenceIdeal.S256x256, .f32⟩ : BufTy).Contents (Elt F)) (x11 : (⟨Cert.ReferenceIdeal.S256x256, .f32⟩ : BufTy).Contents (Elt F)) (x12 : (⟨Cert.ReferenceIdeal.S256, .f32⟩ : BufTy).Contents (Elt F))
    (hh : W4 m ρ c (Proc.devRef .tc main_v43) = Cert.ReferenceIdeal.ReadP.val_main_v53 (F := F) x0 x1 x2 x3 x4 x7 x8 x9 x10 x11 x12)
    (h5 : W4 m ρ c (Proc.devRef .tc main_arg5) = x5) (h6 : W4 m ρ c (Proc.devRef .tc main_arg6) = x6) :
    V5 m ρ c main_v62 = Cert.ReferenceIdeal.ReadP.val_main_v73 (F := F) x0 x1 x2 x3 x4 x5 x6 x7 x8 x9 x10 x11 x12 := by
  show StableHlo.after hostOps2 (W4 m ρ c) (Proc.devRef .tc main_v62) = _
  after_results_simp
  rw [hh, h5, h6]
  rfl

theorem xdst2 (c : Dev nD) (x0 : (⟨Cert.ReferenceIdeal.S1500000x100, .f32⟩ : BufTy).Contents (Elt F)) (x1 : (⟨Cert.ReferenceIdeal.S2000000, .i32⟩ : BufTy).Contents (Elt F)) (x2 : (⟨Cert.ReferenceIdeal.S2000000, .i32⟩ : BufTy).Contents (Elt F)) (x3 : (⟨Cert.ReferenceIdeal.S200000, .i32⟩ : BufTy).Contents (Elt F)) (x4 : (⟨Cert.ReferenceIdeal.S200000, .i32⟩ : BufTy).Contents (Elt F)) (x7 : (⟨Cert.ReferenceIdeal.S100x256, .f32⟩ : BufTy).Contents (Elt F)) (x8 : (⟨Cert.ReferenceIdeal.S100x256, .f32⟩ : BufTy).Contents (Elt F)) (x9 : (⟨Cert.ReferenceIdeal.S256, .f32⟩ : BufTy).Contents (Elt F)) (x10 : (⟨Cert.ReferenceIdeal.S256x256, .f32⟩ : BufTy).Contents (Elt F)) (x11 : (⟨Cert.ReferenceIdeal.S256x256, .f32⟩ : BufTy).Contents (Elt F)) (x12 : (⟨Cert.ReferenceIdeal.S256, .f32⟩ : BufTy).Contents (Elt F))
    (hh : W4 m ρ c (Proc.devRef .tc main_v43) = Cert.ReferenceIdeal.ReadP.val_main_v53 (F := F) x0 x1 x2 x3 x4 x7 x8 x9 x10 x11 x12) :
    V5 m ρ c main_v63 = Cert.ReferenceIdeal.ReadP.val_main_v54 (F := F) x0 x1 x2 x3 x4 x7 x8 x9 x10 x11 x12 := by
  show StableHlo.after hostOps2 (W4 m ρ c) (Proc.devRef .tc main_v63) = _
  after_results
  rw [hh]
  rfl

theorem wl2 (c : Dev nD) : V5 m ρ c main_arg13 = (m ((c.tc : Thread nD τ).loc main_arg13)) := by
  show StableHlo.after hostOps2 (W4 m ρ c) (Proc.devRef .tc main_arg13) = _
  after_results
  exact W4_arg13 m ρ c

theorem wr2 (c : Dev nD) : V5 m ρ c main_arg14 = (m ((c.tc : Thread nD τ).loc main_arg14)) := by
  show StableHlo.after hostOps2 (W4 m ρ c) (Proc.devRef .tc main_arg14) = _
  after_results
  exact W4_arg14 m ρ c

theorem brow2 (c : Dev nD) : V5 m ρ c main_v64 = shapeCast S1x47 (m ((c.tc : Thread nD τ).loc main_arg15)) shapeCasts_S47_S1x47 := by
  show StableHlo.after hostOps2 (W4 m ρ c) (Proc.devRef .tc main_v64) = _
  after_results
  rw [W4_arg15 m ρ c]
  rfl

end Host

/-! ## The three layers on the extended reals -/

variable (m : (ℓ : Loc nD τ sig) → Buf (Elt Ideal) ℓ) (ρ : Dev nD → PrngReg)

/-- The launch arguments. -/
abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)
abbrev A4 (c : Dev nD) := m ((c.tc : Thread nD τ).loc main_arg4)
abbrev A5 (c : Dev nD) := m ((c.tc : Thread nD τ).loc main_arg5)
abbrev A6 (c : Dev nD) := m ((c.tc : Thread nD τ).loc main_arg6)
abbrev A7 (c : Dev nD) := m ((c.tc : Thread nD τ).loc main_arg7)
abbrev A8 (c : Dev nD) := m ((c.tc : Thread nD τ).loc main_arg8)
abbrev A9 (c : Dev nD) := m ((c.tc : Thread nD τ).loc main_arg9)
abbrev A10 (c : Dev nD) := m ((c.tc : Thread nD τ).loc main_arg10)
abbrev A11 (c : Dev nD) := m ((c.tc : Thread nD τ).loc main_arg11)
abbrev A12 (c : Dev nD) := m ((c.tc : Thread nD τ).loc main_arg12)
abbrev A13 (c : Dev nD) := m ((c.tc : Thread nD τ).loc main_arg13)
abbrev A14 (c : Dev nD) := m ((c.tc : Thread nD τ).loc main_arg14)
abbrev A15 (c : Dev nD) := m ((c.tc : Thread nD τ).loc main_arg15)

/-- Region 0's output array is the reference's layer-0 output. -/
theorem h0 (c : Dev nD) : W2 m ρ c (Proc.devRef .tc main_v21) = Cert.ReferenceIdeal.ReadP.val_main_v26 (F := Ideal) (A0 m c) (A1 m c) (A2 m c) (A7 m c) (A8 m c) (A9 m c) :=
  (W2_arr m ρ c 5).trans ((Cert.KernelIdeal.Layer0.final_of (V1 m ρ) c _ _ _ _ (fun q => A9 m c (ix1 q))
    (mean0 m ρ c) (xdst0 m ρ c) (wl0 m ρ c) (wr0 m ρ c)
    (fun q => by rw [brow0 m ρ c]; exact shapeCast_a_1a_apply _ _ 0 q)).trans
    (Cert.ReferenceIdeal.Layers.layer0 (A0 m c) (A1 m c) (A2 m c) (A7 m c) (A8 m c) (A9 m c)).symm)

/-- Region 1's output array is the reference's layer-1 output. -/
theorem h1 (c : Dev nD) : W4 m ρ c (Proc.devRef .tc main_v43) = Cert.ReferenceIdeal.ReadP.val_main_v53 (F := Ideal) (A0 m c) (A1 m c) (A2 m c) (A3 m c) (A4 m c) (A7 m c) (A8 m c) (A9 m c) (A10 m c) (A11 m c) (A12 m c) :=
  (W4_arr m ρ c 5).trans ((Cert.KernelIdeal.Layer1.final_of (V3 m ρ) c _ _ _ _ (fun q => A12 m c (ix1 q))
    (mean1 m ρ c (A0 m c) (A1 m c) (A2 m c) (A3 m c) (A4 m c) (A7 m c) (A8 m c) (A9 m c) (h0 m ρ c) (W2_arg3 m ρ c) (W2_arg4 m ρ c))
    (xdst1 m ρ c (A0 m c) (A1 m c) (A2 m c) (A7 m c) (A8 m c) (A9 m c) (h0 m ρ c)) (wl1 m ρ c) (wr1 m ρ c)
    (fun q => by rw [brow1 m ρ c]; exact shapeCast_a_1a_apply _ _ 0 q)).trans
    (Cert.ReferenceIdeal.Layers.layer1 (A0 m c) (A1 m c) (A2 m c) (A3 m c) (A4 m c) (A7 m c) (A8 m c) (A9 m c) (A10 m c) (A11 m c) (A12 m c)).symm)

/-- THE KERNEL'S RESULT: region 2's output array is the reference's result, as a function of the launch arguments. -/
theorem result (c : Dev nD) : W6 m ρ c (Proc.devRef .tc main_v65) = Cert.ReferenceIdeal.ReadP.val_main_v80 (F := Ideal) (A0 m c) (A1 m c) (A2 m c) (A3 m c) (A4 m c) (A5 m c) (A6 m c) (A7 m c) (A8 m c) (A9 m c) (A10 m c) (A11 m c) (A12 m c) (A13 m c) (A14 m c) (A15 m c) :=
  (W6_arr m ρ c 5).trans ((Cert.KernelIdeal.Layer2.final_of (V5 m ρ) c _ _ _ _ (fun q => A15 m c (ix1 q))
    (mean2 m ρ c (A0 m c) (A1 m c) (A2 m c) (A3 m c) (A4 m c) (A5 m c) (A6 m c) (A7 m c) (A8 m c) (A9 m c) (A10 m c) (A11 m c) (A12 m c) (h1 m ρ c) (W4_arg5 m ρ c) (W4_arg6 m ρ c))
    (xdst2 m ρ c (A0 m c) (A1 m c) (A2 m c) (A3 m c) (A4 m c) (A7 m c) (A8 m c) (A9 m c) (A10 m c) (A11 m c) (A12 m c) (h1 m ρ c)) (wl2 m ρ c) (wr2 m ρ c)
    (fun q => by rw [brow2 m ρ c]; exact shapeCast_a_1a_apply _ _ 0 q)).trans
    (Cert.ReferenceIdeal.Layers.layer2 (A0 m c) (A1 m c) (A2 m c) (A3 m c) (A4 m c) (A5 m c) (A6 m c) (A7 m c) (A8 m c) (A9 m c) (A10 m c) (A11 m c) (A12 m c) (A13 m c) (A14 m c) (A15 m c)).symm)

end Cert.KernelIdeal.Chain
-- ==== Proof.lean ====
/-
  A three-layer GraphSAGE forward pass: the kernel's program equals its reference on the extended reals.

  Each layer forms the mean of the features gathered along the sampled edges (a gather, a scatter-add of the rows and
  a scatter-add of ones for the counts, a division by max (count, 1)), takes the first rows of its input as the
  targets' own features, and applies a dense stage  mean · Wl + x_dst · Wr + b  followed by max (·, 0) in the two
  hidden layers and by each row's log-softmax in the last. The kernel's program runs the dense stages on the
  TensorCore, a block of rows per grid point, narrowing its matrix operands first; the reference runs them as
  whole-array contractions. On the extended reals the narrowing is the identity and a contraction is the exact sum
  over the contracted index whichever unit forms it, so a stage's block of rows is the stage's whole-array function
  read on those rows (Region0, Region1, Region2 over Spec, StageVec, StageBlock), the reference's layer is that
  same function (RefLayers over StageHost), and the operations between the stages are literally the reference's
  (KChain). No law of the extended reals is used beyond 0 + s = s, so the finiteness of the inputs is never opened.

  The three frames: the kernel's programs' are the generated frame certificates; the reference's is its run with the
  result dropped. The idealized kernel differs from the kernel in no rewritten operation, so `preserves` has no conjunct. `algebraic`: both runs end with the
  result array at the reference's last stage of the launch arguments, which agree.
-/
import proofs.«128104_j8186207666616_1_alg».proof.Defs
import proofs.«128104_j8186207666616_1_alg».proof.Proof.Gen.Kernel
import proofs.«128104_j8186207666616_1_alg».proof.Proof.Gen.Kernel.Skeleton
import proofs.«128104_j8186207666616_1_alg».proof.Proof.Gen.Kernel.Launch
import proofs.«128104_j8186207666616_1_alg».proof.Proof.Gen.Kernel.Points
import proofs.«128104_j8186207666616_1_alg».proof.Proof.Gen.Kernel.Frame
import proofs.«128104_j8186207666616_1_alg».proof.Proof.Gen.KernelIdeal
import proofs.«128104_j8186207666616_1_alg».proof.Proof.Gen.KernelIdeal.Skeleton
import proofs.«128104_j8186207666616_1_alg».proof.Proof.Gen.KernelIdeal.Launch
import proofs.«128104_j8186207666616_1_alg».proof.Proof.Gen.KernelIdeal.Points
import proofs.«128104_j8186207666616_1_alg».proof.Proof.Gen.KernelIdeal.Frame
import proofs.«128104_j8186207666616_1_alg».proof.Proof.Gen.ReferenceIdeal
import proofs.«128104_j8186207666616_1_alg».proof.Proof.Gen.Pre_finite_inputs
import proofs.«128104_j8186207666616_1_alg».proof.Proof.KChain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both programs end with the result array at the reference's last stage of the launch arguments: the kernel's by the
    chain of its three layers, the reference's by its run, the arguments agreeing. -/
theorem algebraic : Cert.algebraic_KernelIdeal_ReferenceIdeal := by
  intro m ρ m' ρ' _ hagree
  refine ⟨fun c => Cert.ReferenceIdeal.ReadP.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Chain.result m ρ c), (h c).2⟩)
      (Cert.KernelIdeal.GenRun.run (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v80_eq]
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
